-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![8192, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S2048x2048 : Shape := ⟨2, ![2048, 2048]⟩
abbrev S8192x512 : Shape := ⟨2, ![8192, 512]⟩
abbrev S3 : Shape := ⟨1, ![3]⟩
abbrev S_ : Shape := ⟨0, ![]⟩
abbrev S1 : Shape := ⟨1, ![1]⟩
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x512, .f32⟩
  | _, _ => ⟨S2048x2048, .f32⟩

abbrev bufScoped : (cs : CoreSpace) → Fin (nBuf (.core cs)) → Bool
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v19 : BitVec 32 := Scalar.muli v2 c2048_i32
  let c0_i32_19 : BitVec 32 := 0#32
  ![v19.toNat, 0]
def k0_off2 (d0 : Dev nD) (c1_i32_13 : BitVec 32) : Fin 2 → Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c512_i32 : BitVec 32 := 512#32
  let v18 : BitVec 32 := Scalar.muli v17 c512_i32
  ![0, v18.toNat]
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_17 : BitVec 32 := 1#32
  let v20 : BitVec 32 := Scalar.muli v17 c1_i32_17
  let v21 : BitVec 32 := Scalar.addi c0_i32_18 v20
  v21.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_21 : BitVec 32 := 2#32
  let v28 : BitVec 32 := Scalar.addi v2 c2_i32_21
  let c4_i32_22 : BitVec 32 := 4#32
  let v29 : BitVec 32 := Scalar.remsi v28 c4_i32_22
  let c1_i32_27 : BitVec 32 := 1#32
  let v32 : BitVec 32 := Scalar.muli v29 c1_i32_27
  let v33 : BitVec 32 := Scalar.addi c0_i32_28 v32
  v33.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v40 : BitVec 32 := Scalar.addi v2 c3_i32_31
  let c4_i32_32 : BitVec 32 := 4#32
  let v41 : BitVec 32 := Scalar.remsi v40 c4_i32_32
  let c1_i32_37 : BitVec 32 := 1#32
  let v44 : BitVec 32 := Scalar.muli v41 c1_i32_37
  let v45 : BitVec 32 := Scalar.addi c0_i32_38 v44
  v45.toNat
def k0_off3 (d0 : Dev nD) : Fin 2 → Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_41 : BitVec 32 := 512#32
  let v52 : BitVec 32 := Scalar.muli v2 c512_i32_41
  ![0, v52.toNat]
def k0_off4 (d0 : Dev nD) (c1_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c1_i32_62
  let c4_i32_63 : BitVec 32 := 4#32
  let v71 : BitVec 32 := Scalar.addi v70 c4_i32_63
  let c4_i32_64 : BitVec 32 := 4#32
  let v72 : BitVec 32 := Scalar.remsi v71 c4_i32_64
  let c2048_i32_66 : BitVec 32 := 2048#32
  let v74 : BitVec 32 := Scalar.muli v72 c2048_i32_66
  let c0_i32_71 : BitVec 32 := 0#32
  ![v74.toNat, 0]
def k0_off5 (d0 : Dev nD) (c1_i32_62 : BitVec 32) : Fin 2 → Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c1_i32_62
  let c4_i32_63 : BitVec 32 := 4#32
  let v71 : BitVec 32 := Scalar.addi v70 c4_i32_63
  let c4_i32_64 : BitVec 32 := 4#32
  let v72 : BitVec 32 := Scalar.remsi v71 c4_i32_64
  let c512_i32_65 : BitVec 32 := 512#32
  let v73 : BitVec 32 := Scalar.muli v72 c512_i32_65
  ![0, v73.toNat]

class Facts₀ : Prop where
  hamt_1 : (1#32 : BitVec 32).msb = false
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch0 : 0 + S3.numel ≤ 7
  hcc0_scratch1 : 3 + S3.numel ≤ 7
  hcc0_scratch2 : 6 + S_.numel ≤ 7
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S2048x512.size a ≤ S8192x512.size a
  k0_off2_inb : ∀ d0 : Dev nD, ∀ (r : Fin 3), ∀ a, (k0_off2 d0 (BitVec.ofNat 32 (1 + r.val))) a + S2048x512.size a ≤ S2048x2048.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off3_inb : ∀ d0 : Dev nD, ∀ a, (k0_off3 d0) a + S2048x512.size a ≤ S2048x2048.size a
  k0_off4_inb : ∀ d0 : Dev nD, ∀ (r : Fin 3), ∀ a, (k0_off4 d0 (BitVec.ofNat 32 (1 + r.val))) a + S2048x512.size a ≤ S8192x512.size a
  k0_off5_inb : ∀ d0 : Dev nD, ∀ (r : Fin 3), ∀ a, (k0_off5 d0 (BitVec.ofNat 32 (1 + r.val))) a + S2048x512.size a ≤ S2048x2048.size a

variable [Facts₀]

abbrev cc0_scratch0 : DmaSems sig S3 := SemArray.consecutive 0 S3 hcc0_scratch0
abbrev cc0_scratch1 : DmaSems sig S3 := SemArray.consecutive 3 S3 hcc0_scratch1
abbrev cc0_scratch2 : DmaSems sig S_ := SemArray.consecutive 6 S_ hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelSched.lean ====
/-
  The all-to-all on four devices: the words the rest of the proof is written in.

  Device c holds the block x_c (2048 rows of 2048 columns) of the input. It sends the column block
  [512·p, 512·p + 512) of x_c to device p, for each of the three other devices p = c+1, c+2, c+3 (mod 4), into the row block
  [2048·c, 2048·c + 2048) of p's result, and copies its own column block c into its own row block c. So device p's result
  ends with row block s holding column block p of x_s, for every s: the column block p of the whole input.

  Before any transfer every device signals each of the three others once on the barrier semaphore and waits for three
  units: with its signal to p a device hands p the row block p of its own result, the elements p's transfer will write.
-/
import proofs.«900003_g7700000000000004_dist_a2a_v7x_i4_i_m2048_n512_f32_1_alg».proof.Proof.Gen.Kernel
import proofs.«900003_g7700000000000004_dist_a2a_v7x_i4_i_m2048_n512_f32_1_alg».proof.Proof.Gen.Kernel.Skeleton
import proofs.«900003_g7700000000000004_dist_a2a_v7x_i4_i_m2048_n512_f32_1_alg».proof.Proof.Gen.Kernel.Launch
import proofs.«900003_g7700000000000004_dist_a2a_v7x_i4_i_m2048_n512_f32_1_alg».proof.Proof.Gen.Kernel.Points
import proofs.«900003_g7700000000000004_dist_a2a_v7x_i4_i_m2048_n512_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties named by Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The devices: j steps forward, j steps back (j = 0, 1, 2 for distances 1, 2, 3) -/

def fwd (j : Fin 3) (c : Dev nD) : Dev nD := ⟨(c.val + j.val + 1) % 4, Nat.mod_lt _ (by decide)⟩
def bwd (j : Fin 3) (c : Dev nD) : Dev nD := ⟨(c.val + 3 - j.val) % 4, Nat.mod_lt _ (by decide)⟩

theorem bwd_fwd (j : Fin 3) (c : Dev nD) : bwd j (fwd j c) = c := by revert j c; decide
theorem fwd_bwd (j : Fin 3) (c : Dev nD) : fwd j (bwd j c) = c := by revert j c; decide
theorem fwd_ne (j : Fin 3) (c : Dev nD) : fwd j c ≠ c := by revert j c; decide
theorem bwd_ne (j : Fin 3) (c : Dev nD) : bwd j c ≠ c := by revert j c; decide
/-- The device j steps forward is 2 - j steps back. -/
def opp (j : Fin 3) : Fin 3 := ⟨2 - j.val, by omega⟩
theorem fwd_eq_bwd_opp (j : Fin 3) (c : Dev nD) : fwd j c = bwd (opp j) c := by revert j c; decide
theorem opp_opp (j : Fin 3) : opp (opp j) = j := by revert j; decide

/-- The kernel's device chains: signal j and transfer j name the device j steps forward. -/
theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 0 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 2 c := Fin.ext (k0_dev6_eq c)

/-! ## The memrefs -/

abbrev xM : Memref sig .tc .hbm S2048x2048 .f32 := Memref.whole main_arg0
abbrev oM : Memref sig .tc .hbm S8192x512 .f32 := Memref.whole main_v1

/-- The column block of the input that device c's transfer j reads: the block of the device j steps forward. -/
abbrev xS (j : Fin 3) (c : Dev nD) : Memref sig .tc .hbm S2048x512 .f32 :=
  xM.slice (Rect.unit (s := S2048x2048) (k0_off2 c (BitVec.ofNat 32 (1 + j.val))) S2048x512.size (k0_off2_inb c j)) (fun _ => rfl)
/-- Device c's own column block, which its local copy reads. -/
abbrev xL (c : Dev nD) : Memref sig .tc .hbm S2048x512 .f32 :=
  xM.slice (Rect.unit (s := S2048x2048) (k0_off3 c) S2048x512.size (k0_off3_inb c)) (fun _ => rfl)
/-- Row block c of a result array: what device c's transfers and local copy write, on whichever device. -/
abbrev oS (c : Dev nD) : Memref sig .tc .hbm S2048x512 .f32 :=
  oM.slice (Rect.unit (s := S8192x512) (k0_off1 c) S2048x512.size (k0_off1_inb c)) (fun _ => rfl)

/-! ## The semaphores and cells -/

abbrev barS : Sem sig := (SemArray.scalar (sig.barrier 0 rfl) : Sems sig S_).sem
def sendS (j : Fin 3) : DmaSem sig := ⟨j.val, by show j.val < 7; omega⟩
def recvS (j : Fin 3) : DmaSem sig := ⟨3 + j.val, by show 3 + j.val < 7; omega⟩
def locS : DmaSem sig := ⟨6, by decide⟩

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))
abbrev locCell (c : Dev nD) : GSem nD τ sig := ((c : Thread nD τ), .dma locS)

/-- What one transfer of a 2048 × 512 block credits a DMA semaphore. -/
abbrev N : ℕ := (oS (0 : Dev nD)).view.dmaCredit
theorem N_pos : 0 < N := View.dmaCredit_pos _ (by decide)
theorem credit_oS (c : Dev nD) : (oS c).view.dmaCredit = N := rfl
theorem credit_xS (j : Fin 3) (c : Dev nD) : (xS j c).view.dmaCredit = N := rfl
theorem credit_xL (c : Dev nD) : (xL c).view.dmaCredit = N := rfl

/-! ## Contents -/

/-- Device c's input block as launched. -/
def xin (c : Dev nD) : Buf (Elt F) ((c : Thread nD τ).loc main_arg0) := m ((c : Thread nD τ).loc main_arg0)

/-- The device whose row block a result element lies in: row r is in block r / 2048. -/
def rowDev (i : S8192x512.Idx) : Dev nD :=
  ⟨(i 0).val / 2048, by have h : (i 0).val < 8192 := ValueIdx.idx2_lt0 i; show (i 0).val / 2048 < 4; omega⟩
/-- Where device p's result element (r, k) comes from in its source block: row r mod 2048, column 512·p + k. -/
def srcIdx (p : Dev nD) (i : S8192x512.Idx) : S2048x2048.Idx :=
  ValueIdx.ix2 (⟨(i 0).val % 2048, Nat.mod_lt _ (by decide)⟩ : Fin 2048)
    (⟨512 * p.val + (i 1).val, by have h : (i 1).val < 512 := ValueIdx.idx2_lt1 i; have hp : p.val < 4 := p.isLt; omega⟩ : Fin 2048)

/-- Device p's result after the exchange: element (r, k) is element (r mod 2048, 512·p + k) of the input block of
    device r / 2048. -/
def outAt (p : Dev nD) : Buf (Elt F) ((p : Thread nD τ).loc main_v1) := fun i => xin m (rowDev i) (srcIdx p i)

/-- Row block p of device s's result, at contents f. -/
def slotPts (s p : Dev nD) (f : Buf (Elt F) ((oS p).view.loc (s : Thread nD τ))) : sProp 𝕄 :=
  (oS p).view.loc (s : Thread nD τ) ↦[(oS p).view.set]{fullShare} f
/-- The column block of device c's input that its transfer j reads, at contents f. -/
def xSPts (j : Fin 3) (c : Dev nD) (f : Buf (Elt F) ((xS j c).view.loc (c : Thread nD τ))) : sProp 𝕄 :=
  (xS j c).view.loc (c : Thread nD τ) ↦[(xS j c).view.set]{fullShare} f
/-- Device c's own column block of its input, at contents f. -/
def xLPts (c : Dev nD) (f : Buf (Elt F) ((xL c).view.loc (c : Thread nD τ))) : sProp 𝕄 :=
  (xL c).view.loc (c : Thread nD τ) ↦[(xL c).view.set]{fullShare} f

omit [FloatOps F] in
instance slotPts_storable (s p : Dev nD) (f) : BI.Storable (upEmb : UEmb _ 𝕄) (slotPts (F := F) s p f) := by unfold slotPts; infer_instance
omit [FloatOps F] in
instance xSPts_storable (j : Fin 3) (c : Dev nD) (f) : BI.Storable (upEmb : UEmb _ 𝕄) (xSPts (F := F) j c f) := by unfold xSPts; infer_instance
omit [FloatOps F] in
instance xLPts_storable (c : Dev nD) (f) : BI.Storable (upEmb : UEmb _ 𝕄) (xLPts (F := F) c f) := by unfold xLPts; infer_instance

/-! ## The schedule: one round -/

/-- Duty d of device p's barrier cell is paid by the device d steps back, with row block p of ITS result. -/
def barPay (p : Dev nD) (d : Fin 3) : sProp 𝕄 := iprop(∃ f, slotPts (bwd d p) p f)
/-- A send cell's one duty hands the column block read back. -/
def sendPay (j : Fin 3) (c : Dev nD) : sProp 𝕄 := xSPts j c (xin m c)
/-- Receive cell j of device p is paid by the device j steps back: its row block of p's result, landed. -/
def recvPay (j : Fin 3) (p : Dev nD) : sProp 𝕄 := slotPts p (bwd j p) (outAt m p)
/-- The local copy's cell: the device's own row block landed and its own column block back. -/
def locPay (c : Dev nD) : sProp 𝕄 := iprop(slotPts c c (outAt m c) ∗ xLPts c (xin m c))

def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma q => if h : q.val < 3 then sendPay m ⟨q.val, h⟩ g.1.1
        else if h' : q.val < 6 then recvPay m ⟨q.val - 3, by omega⟩ g.1.1 else locPay m g.1.1
  amount_pos g _ _ _ := by
    cases g.2 with
    | reg _ => exact Nat.one_pos
    | dma _ => exact N_pos

instance a2aRd_payload_storable (g : GSem nD τ sig) (r : ℕ) (d : Fin 3) :
    BI.Storable (upEmb : UEmb _ 𝕄) ((a2aRd (F := F) m).payload g r d) := by
  obtain ⟨t, sm⟩ := g
  cases sm with
  | reg q => show BI.Storable upEmb (barPay t.1 d); unfold barPay; infer_instance
  | dma q =>
    show BI.Storable upEmb (if h : q.val < 3 then sendPay m ⟨q.val, h⟩ t.1
        else if h' : q.val < 6 then recvPay m ⟨q.val - 3, by omega⟩ t.1 else locPay m t.1)
    unfold sendPay recvPay locPay
    (repeat' split) <;> infer_instance

section Sched
variable (c : Dev nD) (j : Fin 3)

omit [FloatOps F] in
theorem duties_bar : (a2aRd (F := F) m).duties (barCell c) 0 = Finset.univ := by dsimp only [a2aRd]; exact if_pos ⟨rfl, rfl⟩
omit [FloatOps F] in
theorem duties_send : (a2aRd (F := F) m).duties (sendCell j c) 0 = {0} := by dsimp only [a2aRd]; exact if_pos ⟨rfl, rfl⟩
omit [FloatOps F] in
theorem duties_recv : (a2aRd (F := F) m).duties (recvCell j c) 0 = {0} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_send (d : Fin 3) : (a2aRd (F := F) m).amount (sendCell j c) 0 d = N := rfl
omit [FloatOps F] in
theorem amount_recv (d : Fin 3) : (a2aRd (F := F) m).amount (recvCell j c) 0 d = N := rfl
omit [FloatOps F] in
theorem amount_loc (d : Fin 3) : (a2aRd (F := F) m).amount (locCell c) 0 d = N := rfl

omit [FloatOps F] in
theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
/-- A round with one duty expects that duty's amount. -/
theorem expect_of_single {G D 𝕄' : Type} [DecidableEq G] [DecidableEq D] [URA 𝕄'] (Rd : Rounds.Schedule G D 𝕄') {g : G} {r : ℕ} {d : D} {k : ℕ}
    (hd : Rd.duties g r = {d}) (hk : Rd.amount g r d = k) : Rd.expect g r = k := by
  unfold Schedule.expect Schedule.amountOf; rw [hd, Finset.sum_singleton, hk]
omit [FloatOps F] in
theorem expect_send : (a2aRd (F := F) m).expect (sendCell j c) 0 = N := expect_of_single _ (duties_send m c j) (amount_send m c j 0)
omit [FloatOps F] in
theorem expect_recv : (a2aRd (F := F) m).expect (recvCell j c) 0 = N := expect_of_single _ (duties_recv m c j) (amount_recv m c j 0)
omit [FloatOps F] in
theorem expect_loc : (a2aRd (F := F) m).expect (locCell c) 0 = N := expect_of_single _ (duties_loc m c) (amount_loc m c 0)
omit [FloatOps F] in
theorem payload_bar (d : Fin 3) : (a2aRd (F := F) m).payload (barCell c) 0 d = barPay c d := rfl
omit [FloatOps F] in
theorem payload_send (d : Fin 3) : (a2aRd (F := F) m).payload (sendCell j c) 0 d = sendPay m j c := by
  show (if h : (sendS j).val < 3 then sendPay m ⟨(sendS j).val, h⟩ c
        else if h' : (sendS j).val < 6 then recvPay m ⟨(sendS j).val - 3, by omega⟩ c else locPay m c) = _
  rw [dif_pos (show (sendS j).val < 3 from j.isLt)]; rfl
omit [FloatOps F] in
theorem payload_recv (d : Fin 3) : (a2aRd (F := F) m).payload (recvCell j c) 0 d = recvPay m j c := by
  show (if h : (recvS j).val < 3 then sendPay m ⟨(recvS j).val, h⟩ c
        else if h' : (recvS j).val < 6 then recvPay m ⟨(recvS j).val - 3, by omega⟩ c else locPay m c) = _
  have h3 : ¬ (recvS j).val < 3 := by show ¬ 3 + j.val < 3; omega
  have h6 : (recvS j).val < 6 := by show 3 + j.val < 6; omega
  rw [dif_neg h3, dif_pos h6]
  congr 1; exact Fin.ext (by show 3 + j.val - 3 = j.val; omega)
omit [FloatOps F] in
theorem payload_loc (d : Fin 3) : (a2aRd (F := F) m).payload (locCell c) 0 d = locPay m c := by
  show (if h : (locS).val < 3 then sendPay m ⟨(locS).val, h⟩ c
        else if h' : (locS).val < 6 then recvPay m ⟨(locS).val - 3, by omega⟩ c else locPay m c) = _
  rw [dif_neg (show ¬ (locS).val < 3 from by show ¬ (6 : ℕ) < 3; decide), dif_neg (show ¬ (locS).val < 6 from by show ¬ (6 : ℕ) < 6; decide)]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole of the barrier cell's round: the three row blocks the three other devices hand over. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_fin3]; rfl
omit [FloatOps F] in
theorem rest_send : bigSep ((a2aRd (F := F) m).duties (sendCell j c) 0 \ ∅) (fun d => (a2aRd (F := F) m).payload (sendCell j c) 0 d) = sendPay m j c := by
  rw [Finset.sdiff_empty, duties_send, bigSep_singleton, payload_send]
omit [FloatOps F] in
theorem rest_recv : bigSep ((a2aRd (F := F) m).duties (recvCell j c) 0 \ ∅) (fun d => (a2aRd (F := F) m).payload (recvCell j c) 0 d) = recvPay m j c := by
  rw [Finset.sdiff_empty, duties_recv, bigSep_singleton, payload_recv]
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

/-! ## The cells of one device, by index -/

/-- Barrier; send 0, 1, 2; receive 0, 1, 2; local copy. -/
abbrev csem : Fin 8 → SemLoc sig := fun
  | 0 => .reg barS | 1 => .dma (sendS 0) | 2 => .dma (sendS 1) | 3 => .dma (sendS 2)
  | 4 => .dma (recvS 0) | 5 => .dma (recvS 1) | 6 => .dma (recvS 2) | 7 => .dma locS
abbrev kcell (ck : Dev nD × Fin 8) : GSem nD τ sig := ((ck.1 : Thread nD τ), csem ck.2)
def kS (j : Fin 3) : Fin 8 := ⟨1 + j.val, by omega⟩
def kR (j : Fin 3) : Fin 8 := ⟨4 + j.val, by omega⟩
theorem kcell_bar (c : Dev nD) : kcell (c, 0) = barCell c := rfl
theorem kcell_send (j : Fin 3) (c : Dev nD) : kcell (c, kS j) = sendCell j c := by fin_cases j <;> rfl
theorem kcell_recv (j : Fin 3) (c : Dev nD) : kcell (c, kR j) = recvCell j c := by fin_cases j <;> rfl
theorem kcell_loc (c : Dev nD) : kcell (c, 7) = locCell c := rfl

/-- The kernel's own (scoped) semaphores, as the launch indexes them: the seven DMA semaphores. -/
abbrev osem : Fin 7 → SemLoc sig := fun k => .dma k

/-! ## What each device owes at launch; the levels -/

/-- The unit device c owes the barrier cell of the device j steps forward, -/
def Bt (j : Fin 3) (c : Dev nD) : CellTallies nD τ sig Unit := tallyAt (barCell (fwd j c)) () 1
/-- and the block's credit it owes that device's receive cell j. -/
def Rt (j : Fin 3) (c : Dev nD) : CellTallies nD τ sig Unit := tallyAt (recvCell j (fwd j c)) () N
/-- After the three signals: the three transfers' credits, summed so that transfer 0 peels the last summand. -/
def O₃ (c : Dev nD) : CellTallies nD τ sig Unit := Rt 2 c + Rt 1 c + Rt 0 c
/-- At launch: those and the three signals' units, signal 0's the last summand. -/
def O₀ (c : Dev nD) : CellTallies nD τ sig Unit := O₃ c + Bt 2 c + Bt 1 c + Bt 0 c

def L (g : GSem nD τ sig) : Finset Unit := if g.1.2 = .tc then {()} else ∅
/-- Barrier cells at 1, receive cells at 2, send and local-copy cells at 0. -/
def lv (g : GSem nD τ sig) (_ : Unit) : ℕ := match g.2 with | .reg _ => 1 | .dma q => if 3 ≤ q.val ∧ q.val < 6 then 2 else 0

/-! ## The ghost state a device's body starts from -/

/-- Every cell's invariant, under the names K the launch allocated them at, and that every cell has reached round 0. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

/-- The tokens of the duties device c pays with step j: its signal's duty (duty j of the barrier cell j steps forward), its
    transfer's two duties (receive cell j of that device, its own send cell j). -/
def payTok (j : Fin 3) (c : Dev nD) : sProp 𝕄 :=
  iprop(dutyTok ER (barCell (fwd j c)) 0 j ∗ dutyTok ER (recvCell j (fwd j c)) 0 0 ∗ dutyTok ER (sendCell j c) 0 0)
def payToks (c : Dev nD) : sProp 𝕄 := iprop(payTok 0 c ∗ payTok 1 c ∗ payTok 2 c ∗ dutyTok ER (locCell c) 0 0)
/-- Device c's positions: at round 0 of each of its eight cells, nothing taken or consumed. -/
def positions (c : Dev nD) : sProp 𝕄 := bigSep Finset.univ fun k : Fin 8 => atPos ER (kcell (c, k)) 0 ∅ 0
def linear (c : Dev nD) : sProp 𝕄 := iprop(positions c ∗ payToks c)
def ghost (K : Dev nD × Fin 8 → ℕ) (c : Dev nD) : sProp 𝕄 := iprop(records m K ∗ linear c)

/-- What device c's body starts from besides its arrays: the ghost state at some names, the credit of its barrier's three
    units and of its three receive cells, and the level facts. -/
def start (c : Dev nD) : sProp 𝕄 :=
  iprop((∃ K, ghost m K c) ∗ cred (tallyAt (barCell c) () 3)
    ∗ (cred (tallyAt (recvCell 0 c) () N) ∗ cred (tallyAt (recvCell 1 c) () N) ∗ cred (tallyAt (recvCell 2 c) () N))
    ∗ levAts L lv)

/-- Before the body: that, the input block as launched and the result array at any contents. -/
def Φ₀ (c : Dev nD) : sProp 𝕄 :=
  iprop(start m c ∗ (((c : Thread nD τ).loc main_arg0) ↦{fullShare} xin m c) ∗ ∃ f, (((c : Thread nD τ).loc main_v1) ↦{fullShare} f))
/-- After it: the input block unchanged, the result array at the exchanged contents, the seven own semaphores at zero. -/
def Φ₁ (c : Dev nD) : sProp 𝕄 :=
  iprop((((c : Thread nD τ).loc main_arg0) ↦{fullShare} xin m c) ∗ (((c : Thread nD τ).loc main_v1) ↦{fullShare} outAt m c)
    ∗ Pipeline.ownSems0 osem c)

/-- The pipeline's proof data: no window; the invariant before and after the one point; what is owed before and after it. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The run's post: every device's result array at the exchanged contents, its input block unchanged. -/
def QC : PUnit × MemSt nD τ sig (Elt F) → Prop := fun r =>
  ∀ c : Dev nD, r.2.mem ((c : Thread nD τ).loc main_v1) = outAt m c
    ∧ r.2.mem ((c : Thread nD τ).loc main_arg0) = m ((c : Thread nD τ).loc main_arg0)

end Cert.Kernel.A2A

end
-- ==== Proof.KernelRegions.lean ====
/-
  The geometry of the exchange.

  Device c's result array has 8192 rows of 512 columns; row block p is rows [2048·p, 2048·p + 2048). The four row blocks
  are pairwise disjoint and cover every index, so the whole array is the four blocks side by side, in whichever order the
  four devices are listed (c and the three devices forward of it, or c and the three devices back of it).
  Device c's input block has 2048 rows of 2048 columns; column block p is columns [512·p, 512·p + 512). The device's own
  column block and the three column blocks its transfers read (those of the devices 1, 2, 3 steps forward) are again four
  disjoint blocks that cover every index.

  Transfer j of device s writes row block s of the result of the device p, j steps forward, with column block p of s's
  input block: at element (2048·s + r, k) that is x_s (r, 512·p + k), which is what the exchanged result holds there,
  since that row lies in row block s and its source index is (r, 512·p + k). The local copy is the same with p = s.
-/
import proofs.«900003_g7700000000000004_dist_a2a_v7x_i4_i_m2048_n512_f32_1_alg».proof.Proof.KernelSched
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which elements each block holds -/

/-- Row block p of a result array: the rows from 2048·p up to 2048·p + 2048, every column. -/
theorem mem_oS (p : Dev nD) (i : S8192x512.Idx) :
    i ∈ (oS p).view.set ↔ 2048 * p.val ≤ (i 0).val ∧ (i 0).val < 2048 * p.val + 2048 := by
  rw [show (oS p).view.set = (Rect.unit (s := S8192x512) (k0_off1 p) S2048x512.size (k0_off1_inb p)).set from
    View.set_slice_whole _ _, Rect.mem_set_unit, Gen.k0_off1_eq, Fin.forall_fin_two]
  have h1 : (i 1).val < 512 := ValueIdx.idx2_lt1 i
  show (2048 * p.val ≤ (i 0).val ∧ (i 0).val < 2048 * p.val + 2048) ∧ (0 ≤ (i 1).val ∧ (i 1).val < 0 + 512) ↔ _
  omega

/-- A device's own column block of its input: the columns from 512·c up to 512·c + 512, every row. -/
theorem mem_xL (c : Dev nD) (i : S2048x2048.Idx) :
    i ∈ (xL c).view.set ↔ 512 * c.val ≤ (i 1).val ∧ (i 1).val < 512 * c.val + 512 := by
  rw [show (xL c).view.set = (Rect.unit (s := S2048x2048) (k0_off3 c) S2048x512.size (k0_off3_inb c)).set from
    View.set_slice_whole _ _, Rect.mem_set_unit, Gen.k0_off3_eq, Fin.forall_fin_two]
  have h0 : (i 0).val < 2048 := ValueIdx.idx2_lt0 i
  show (0 ≤ (i 0).val ∧ (i 0).val < 0 + 2048) ∧ (512 * c.val ≤ (i 1).val ∧ (i 1).val < 512 * c.val + 512) ↔ _
  omega

/-- The column block transfer j reads: that of the device j steps forward. -/
theorem mem_xS (j : Fin 3) (c : Dev nD) (i : S2048x2048.Idx) :
    i ∈ (xS j c).view.set ↔ 512 * (fwd j c).val ≤ (i 1).val ∧ (i 1).val < 512 * (fwd j c).val + 512 := by
  rw [show (xS j c).view.set = (Rect.unit (s := S2048x2048) (k0_off2 c (BitVec.ofNat 32 (1 + j.val))) S2048x512.size
      (k0_off2_inb c j)).set from View.set_slice_whole _ _, Rect.mem_set_unit, Gen.k0_off2_eq, Fin.forall_fin_two]
  have h0 : (i 0).val < 2048 := ValueIdx.idx2_lt0 i
  show (0 ≤ (i 0).val ∧ (i 0).val < 0 + 2048)
      ∧ (512 * ((c.val + j.val + 1) % 4) ≤ (i 1).val ∧ (i 1).val < 512 * ((c.val + j.val + 1) % 4) + 512) ↔
    512 * ((c.val + j.val + 1) % 4) ≤ (i 1).val ∧ (i 1).val < 512 * ((c.val + j.val + 1) % 4) + 512
  omega

/-! ## The four devices -/

theorem four_fwd (c p : Dev nD) : p = c ∨ p = fwd 0 c ∨ p = fwd 1 c ∨ p = fwd 2 c := by revert c p; decide
theorem four_bwd (c p : Dev nD) : p = c ∨ p = bwd 0 c ∨ p = bwd 1 c ∨ p = bwd 2 c := by revert c p; decide
theorem fwd_fwd_ne (j j' : Fin 3) (h : j ≠ j') (c : Dev nD) : fwd j c ≠ fwd j' c := by revert j j' c; decide
theorem bwd_bwd_ne (j j' : Fin 3) (h : j ≠ j') (c : Dev nD) : bwd j c ≠ bwd j' c := by revert j j' c; decide

/-! ## Disjointness and cover -/

/-- Row blocks of different devices share no element. -/
theorem oS_disjoint {p p' : Dev nD} (h : p ≠ p') : Disjoint (oS p).view.set (oS p').view.set :=
  Finset.disjoint_left.mpr fun i h1 h2 => by
    rw [mem_oS] at h1 h2
    have hv : p.val ≠ p'.val := fun e => h (Fin.ext e)
    omega

/-- Every result index lies in the row block of its row's device. -/
theorem oS_cover (i : S8192x512.Idx) : i ∈ (oS (rowDev i)).view.set := by
  rw [mem_oS]
  show 2048 * ((i 0).val / 2048) ≤ (i 0).val ∧ (i 0).val < 2048 * ((i 0).val / 2048) + 2048
  omega

theorem oS_cover_of {p : Dev nD} (i : S8192x512.Idx) (h : rowDev i = p) : i ∈ (oS p).view.set := h ▸ oS_cover i

/-- The device whose column block an input index lies in: column k is in block k / 512. -/
def colDev (i : S2048x2048.Idx) : Dev nD :=
  ⟨(i 1).val / 512, by have h : (i 1).val < 2048 := ValueIdx.idx2_lt1 i; show (i 1).val / 512 < 4; omega⟩

theorem xL_xS_disjoint (j : Fin 3) (c : Dev nD) : Disjoint (xL c).view.set (xS j c).view.set :=
  Finset.disjoint_left.mpr fun i h1 h2 => by
    rw [mem_xL] at h1; rw [mem_xS] at h2
    have hv : (fwd j c).val ≠ c.val := fun e => fwd_ne j c (Fin.ext e)
    omega

theorem xS_disjoint {j j' : Fin 3} (h : j ≠ j') (c : Dev nD) : Disjoint (xS j c).view.set (xS j' c).view.set :=
  Finset.disjoint_left.mpr fun i h1 h2 => by
    rw [mem_xS] at h1 h2
    have hv : (fwd j c).val ≠ (fwd j' c).val := fun e => fwd_fwd_ne j j' h c (Fin.ext e)
    omega

theorem xL_cover (c : Dev nD) (i : S2048x2048.Idx) (h : colDev i = c) : i ∈ (xL c).view.set := by
  rw [mem_xL, ← h]
  show 512 * ((i 1).val / 512) ≤ (i 1).val ∧ (i 1).val < 512 * ((i 1).val / 512) + 512
  omega

theorem xS_cover (j : Fin 3) (c : Dev nD) (i : S2048x2048.Idx) (h : colDev i = fwd j c) : i ∈ (xS j c).view.set := by
  rw [mem_xS, ← h]
  show 512 * ((i 1).val / 512) ≤ (i 1).val ∧ (i 1).val < 512 * ((i 1).val / 512) + 512
  omega

/-! ## A buffer held whole is held by four disjoint parts that cover it, and back -/

omit [FloatOps F] in
theorem pts_four {ℓ : Loc nD τ sig} (S0 S1 S2 S3 : Finset (Idx ℓ)) (f : Buf (Elt F) ℓ)
    (h01 : Disjoint S0 S1) (h02 : Disjoint S0 S2) (h03 : Disjoint S0 S3)
    (h12 : Disjoint S1 S2) (h13 : Disjoint S1 S3) (h23 : Disjoint S2 S3)
    (hcov : ∀ i, i ∈ S0 ∨ i ∈ S1 ∨ i ∈ S2 ∨ i ∈ S3) :
    ((ℓ ↦{fullShare} f) : sProp 𝕄)
      ⊣⊢ iprop((ℓ ↦[S0]{fullShare} f) ∗ (ℓ ↦[S1]{fullShare} f) ∗ (ℓ ↦[S2]{fullShare} f) ∗ (ℓ ↦[S3]{fullShare} f)) := by
  have e : (Finset.univ : Finset (Idx ℓ)) = S0 ∪ (S1 ∪ (S2 ∪ S3)) := by
    ext i; simp only [Finset.mem_univ, Finset.mem_union, true_iff]; exact hcov i
  rw [e]
  have d0 : Disjoint S0 (S1 ∪ (S2 ∪ S3)) :=
    Finset.disjoint_union_right.mpr ⟨h01, Finset.disjoint_union_right.mpr ⟨h02, h03⟩⟩
  have d1 : Disjoint S1 (S2 ∪ S3) := Finset.disjoint_union_right.mpr ⟨h12, h13⟩
  exact (Region.is_union d0).trans (sep_congr_right ((Region.is_union d1).trans (sep_congr_right (Region.is_union h23))))

/-! ## The result array by row blocks -/

omit [FloatOps F] in
/-- The result array of device c is its own row block and those of the three devices forward of it. -/
theorem out_fwd (c : Dev nD) (f : Buf (Elt F) ((c : Thread nD τ).loc main_v1)) :
    ((((c : Thread nD τ).loc main_v1) ↦{fullShare} f) : sProp 𝕄)
      ⊣⊢ iprop(slotPts c c f ∗ slotPts c (fwd 0 c) f ∗ slotPts c (fwd 1 c) f ∗ slotPts c (fwd 2 c) f) :=
  pts_four (ℓ := (c : Thread nD τ).loc main_v1) (oS c).view.set (oS (fwd 0 c)).view.set (oS (fwd 1 c)).view.set
    (oS (fwd 2 c)).view.set f
    (oS_disjoint (fwd_ne 0 c).symm) (oS_disjoint (fwd_ne 1 c).symm) (oS_disjoint (fwd_ne 2 c).symm)
    (oS_disjoint (fwd_fwd_ne 0 1 (by decide) c)) (oS_disjoint (fwd_fwd_ne 0 2 (by decide) c))
    (oS_disjoint (fwd_fwd_ne 1 2 (by decide) c))
    fun i => (four_fwd c (rowDev i)).imp (fun h => oS_cover_of i h)
      (Or.imp (fun h => oS_cover_of i h) (Or.imp (fun h => oS_cover_of i h) fun h => oS_cover_of i h))

omit [FloatOps F] in
/-- The same array is its own row block and those of the three devices back of it. -/
theorem out_bwd (c : Dev nD) (f : Buf (Elt F) ((c : Thread nD τ).loc main_v1)) :
    ((((c : Thread nD τ).loc main_v1) ↦{fullShare} f) : sProp 𝕄)
      ⊣⊢ iprop(slotPts c c f ∗ slotPts c (bwd 0 c) f ∗ slotPts c (bwd 1 c) f ∗ slotPts c (bwd 2 c) f) :=
  pts_four (ℓ := (c : Thread nD τ).loc main_v1) (oS c).view.set (oS (bwd 0 c)).view.set (oS (bwd 1 c)).view.set
    (oS (bwd 2 c)).view.set f
    (oS_disjoint (bwd_ne 0 c).symm) (oS_disjoint (bwd_ne 1 c).symm) (oS_disjoint (bwd_ne 2 c).symm)
    (oS_disjoint (bwd_bwd_ne 0 1 (by decide) c)) (oS_disjoint (bwd_bwd_ne 0 2 (by decide) c))
    (oS_disjoint (bwd_bwd_ne 1 2 (by decide) c))
    fun i => (four_bwd c (rowDev i)).imp (fun h => oS_cover_of i h)
      (Or.imp (fun h => oS_cover_of i h) (Or.imp (fun h => oS_cover_of i h) fun h => oS_cover_of i h))

omit [FloatOps F] in
theorem out_split (c : Dev nD) (f : Buf (Elt F) ((c : Thread nD τ).loc main_v1)) :
    ((((c : Thread nD τ).loc main_v1) ↦{fullShare} f) : sProp 𝕄)
      ⊢ iprop(slotPts c c f ∗ slotPts c (fwd 0 c) f ∗ slotPts c (fwd 1 c) f ∗ slotPts c (fwd 2 c) f) :=
  (out_fwd c f).mp

omit [FloatOps F] in
theorem out_join (c : Dev nD) (f : Buf (Elt F) ((c : Thread nD τ).loc main_v1)) :
    (iprop(slotPts c c f ∗ slotPts c (bwd 0 c) f ∗ slotPts c (bwd 1 c) f ∗ slotPts c (bwd 2 c) f) : sProp 𝕄)
      ⊢ (((c : Thread nD τ).loc main_v1) ↦{fullShare} f) :=
  (out_bwd c f).mpr

/-! ## The input block by column blocks -/

omit [FloatOps F] in
/-- The input block of device c is its own column block and the three its transfers read. -/
theorem x_cut (c : Dev nD) (f : Buf (Elt F) ((c : Thread nD τ).loc main_arg0)) :
    ((((c : Thread nD τ).loc main_arg0) ↦{fullShare} f) : sProp 𝕄)
      ⊣⊢ iprop(xLPts c f ∗ xSPts 0 c f ∗ xSPts 1 c f ∗ xSPts 2 c f) :=
  pts_four (ℓ := (c : Thread nD τ).loc main_arg0) (xL c).view.set (xS 0 c).view.set (xS 1 c).view.set
    (xS 2 c).view.set f
    (xL_xS_disjoint 0 c) (xL_xS_disjoint 1 c) (xL_xS_disjoint 2 c)
    (xS_disjoint (by decide) c) (xS_disjoint (by decide) c) (xS_disjoint (by decide) c)
    fun i => (four_fwd c (colDev i)).imp (fun h => xL_cover c i h)
      (Or.imp (fun h => xS_cover 0 c i h) (Or.imp (fun h => xS_cover 1 c i h) fun h => xS_cover 2 c i h))

omit [FloatOps F] in
theorem x_split (c : Dev nD) (f : Buf (Elt F) ((c : Thread nD τ).loc main_arg0)) :
    ((((c : Thread nD τ).loc main_arg0) ↦{fullShare} f) : sProp 𝕄)
      ⊢ iprop(xLPts c f ∗ xSPts 0 c f ∗ xSPts 1 c f ∗ xSPts 2 c f) :=
  (x_cut c f).mp

omit [FloatOps F] in
theorem x_join (c : Dev nD) (f : Buf (Elt F) ((c : Thread nD τ).loc main_arg0)) :
    (iprop(xLPts c f ∗ xSPts 0 c f ∗ xSPts 1 c f ∗ xSPts 2 c f) : sProp 𝕄)
      ⊢ (((c : Thread nD τ).loc main_arg0) ↦{fullShare} f) :=
  (x_cut c f).mpr

/-! ## What a landing leaves -/

/-- Element y of row block s sits at row 2048·s + y₀, column y₁ of the result array. -/
theorem oS_emb_val (s : Dev nD) (y : S2048x512.Idx) :
    (((oS s).view.emb y : S8192x512.Idx) 0).val = 2048 * s.val + (y 0).val
      ∧ (((oS s).view.emb y : S8192x512.Idx) 1).val = (y 1).val := by
  have h := Gen.k0_off1_eq s
  constructor
  · show k0_off1 s 0 + 1 * (y 0).val = _
    rw [h]; show 2048 * s.val + 1 * (y 0).val = _; omega
  · show k0_off1 s 1 + 1 * (y 1).val = _
    rw [h]; show 0 + 1 * (y 1).val = _; omega

/-- The exchanged result at an index whose row's device and source index are known. -/
theorem outAt_eq (p s : Dev nD) (i : S8192x512.Idx) (x : S2048x2048.Idx) (hr : rowDev i = s) (hx : srcIdx p i = x) :
    outAt m p i = xin m s x := by
  subst hr; subst hx; rfl

/-- Row block s of device p's result, written with column block p of device s's input block (the 2048 × 512 block at
    offsets (0, 512·p)), holds the exchanged result: element (2048·s + r, k) takes x_s (r, 512·p + k), its row lies in row
    block s, and its source index is (r, 512·p + k). -/
theorem land (p s : Dev nD) (off : Fin 2 → ℕ) (inb : ∀ a, off a + S2048x512.size a ≤ S2048x2048.size a)
    (hoff : off = ![0, 512 * p.val]) (fd : Buf (Elt F) ((oS s).view.loc (p : Thread nD τ))) :
    ∀ i ∈ (oS s).view.set,
      (oS s).view.write (Elt F) fd
          ((xM.slice (Rect.unit (s := S2048x2048) off S2048x512.size inb) (fun _ => rfl)).view.read (Elt F) (xin m s))
          Finset.univ i
        = outAt m p i := by
  intro i hi
  have hb := (mem_oS s i).mp hi
  have h1 : (i 1).val < 512 := ValueIdx.idx2_lt1 i
  have hs : s.val < 4 := s.isLt
  -- the element's place in the block: row i₀ - 2048·s, column i₁
  obtain ⟨y, hy0, hy1⟩ : ∃ y : S2048x512.Idx, (y 0).val = (i 0).val - 2048 * s.val ∧ (y 1).val = (i 1).val :=
    ⟨ValueIdx.ix2 (⟨(i 0).val - 2048 * s.val, by omega⟩ : Fin 2048) (⟨(i 1).val, h1⟩ : Fin 512), rfl, rfl⟩
  have hy : (oS s).view.emb y = i := by
    funext a
    refine Fin.ext ?_
    match a with
    | ⟨0, _⟩ =>
      show (((oS s).view.emb y : S8192x512.Idx) 0).val = (i 0).val
      rw [(oS_emb_val s y).1, hy0]; omega
    | ⟨1, _⟩ =>
      show (((oS s).view.emb y : S8192x512.Idx) 1).val = (i 1).val
      rw [(oS_emb_val s y).2, hy1]
  have hrow : rowDev i = s := Fin.ext (by show (i 0).val / 2048 = s.val; omega)
  have hsrc : srcIdx p i
      = (xM.slice (Rect.unit (s := S2048x2048) off S2048x512.size inb) (fun _ => rfl)).view.emb y := by
    subst hoff
    funext a
    refine Fin.ext ?_
    match a with
    | ⟨0, _⟩ =>
      show (i 0).val % 2048 = 0 + 1 * (y 0).val
      rw [hy0]; omega
    | ⟨1, _⟩ =>
      show 512 * p.val + (i 1).val = 512 * p.val + 1 * (y 1).val
      rw [hy1]; omega
  calc (oS s).view.write (Elt F) fd
          ((xM.slice (Rect.unit (s := S2048x2048) off S2048x512.size inb) (fun _ => rfl)).view.read (Elt F) (xin m s))
          Finset.univ i
      = (oS s).view.write (Elt F) fd
          ((xM.slice (Rect.unit (s := S2048x2048) off S2048x512.size inb) (fun _ => rfl)).view.read (Elt F) (xin m s))
          Finset.univ ((oS s).view.emb y) := by rw [hy]
    _ = outAt m p i := by
      rw [View.write_emb_of_mem _ _ (Finset.mem_univ y), View.read_apply, outAt_eq m p s i _ hrow hsrc]
      rfl

theorem land_remote (j : Fin 3) (s : Dev nD) (fd : Buf (Elt F) ((oS s).view.loc ((fwd j s : Dev nD) : Thread nD τ))) :
    ∀ i ∈ (oS s).view.set,
      (oS s).view.write (Elt F) fd ((xS j s).view.read (Elt F) (xin m s)) Finset.univ i = outAt m (fwd j s) i :=
  land m (fwd j s) s (k0_off2 s (BitVec.ofNat 32 (1 + j.val))) (k0_off2_inb s j) (Gen.k0_off2_eq s j) fd

theorem land_local (c : Dev nD) (fd : Buf (Elt F) ((oS c).view.loc (c : Thread nD τ))) :
    ∀ i ∈ (oS c).view.set,
      (oS c).view.write (Elt F) fd ((xL c).view.read (Elt F) (xin m c)) Finset.univ i = outAt m c i :=
  land m c c (k0_off3 c) (k0_off3_inb c) (Gen.k0_off3_eq c) fd

/-- the second payload obligation of the send rule (Rounds.wp_send_pointsTo's hpay₂) at transfer j of device s -/
theorem recv_landed (j : Fin 3) (s : Dev nD) (fd : Buf (Elt F) ((oS s).view.loc ((fwd j s : Dev nD) : Thread nD τ))) :
    (((oS s).view.loc ((fwd j s : Dev nD) : Thread nD τ) ↦[(oS s).view.set]{fullShare}
        ((oS s).view.write (Elt F) fd ((xS j s).view.read (Elt F) (xin m s)) Finset.univ)) : sProp 𝕄)
      ⊢ recvPay m j (fwd j s) := by
  have e : recvPay m j (fwd j s)
      = (((oS s).view.loc ((fwd j s : Dev nD) : Thread nD τ) ↦[(oS s).view.set]{fullShare} outAt m (fwd j s)) : sProp 𝕄) := by
    unfold recvPay slotPts; rw [bwd_fwd]
  rw [e]
  exact Entails.of_eq (Region.is_congr (land_remote m j s fd))

/-- the payload obligation of the local copy (Rounds.wp_copy_pointsTo's hpay) on device c -/
theorem loc_landed (c : Dev nD) (fd : Buf (Elt F) ((oS c).view.loc (c : Thread nD τ))) :
    (iprop(((oS c).view.loc (c : Thread nD τ) ↦[(oS c).view.set]{fullShare}
          ((oS c).view.write (Elt F) fd ((xL c).view.read (Elt F) (xin m c)) Finset.univ))
        ∗ ((xL c).view.loc (c : Thread nD τ) ↦[(xL c).view.set]{fullShare} xin m c)) : sProp 𝕄)
      ⊢ locPay m c := by
  unfold locPay slotPts xLPts
  exact sep_mono (Entails.of_eq (Region.is_congr (land_local m c fd))) .rfl

end Cert.Kernel.A2A

end

/-- info: 'Cert.Kernel.A2A.out_split' depends on axioms: [propext, Classical.choice, Quot.sound] -/
#guard_msgs in #print axioms Cert.Kernel.A2A.out_split
/-- info: 'Cert.Kernel.A2A.out_join' depends on axioms: [propext, Classical.choice, Quot.sound] -/
#guard_msgs in #print axioms Cert.Kernel.A2A.out_join
/-- info: 'Cert.Kernel.A2A.x_split' depends on axioms: [propext, Classical.choice, Quot.sound] -/
#guard_msgs in #print axioms Cert.Kernel.A2A.x_split
/-- info: 'Cert.Kernel.A2A.x_join' depends on axioms: [propext, Classical.choice, Quot.sound] -/
#guard_msgs in #print axioms Cert.Kernel.A2A.x_join
/-- info: 'Cert.Kernel.A2A.land_remote' depends on axioms: [propext, Classical.choice, Quot.sound] -/
#guard_msgs in #print axioms Cert.Kernel.A2A.land_remote
/-- info: 'Cert.Kernel.A2A.land_local' depends on axioms: [propext, Classical.choice, Quot.sound] -/
#guard_msgs in #print axioms Cert.Kernel.A2A.land_local
/-- info: 'Cert.Kernel.A2A.recv_landed' depends on axioms: [propext, Classical.choice, Quot.sound] -/
#guard_msgs in #print axioms Cert.Kernel.A2A.recv_landed
/-- info: 'Cert.Kernel.A2A.loc_landed' depends on axioms: [propext, Classical.choice, Quot.sound] -/
#guard_msgs in #print axioms Cert.Kernel.A2A.loc_landed
-- ==== Proof.KernelLaunch.lean ====
/-
  The all-to-all on four devices: the launch. From "each device's body is proved" to the run of the program on the
  four devices: the levels at which a device may wait, the ghost state minted at launch and how it is dealt to the
  devices, the launch credit, and the theorem's side conditions.
-/
import proofs.«900003_g7700000000000004_dist_a2a_v7x_i4_i_m2048_n512_f32_1_alg».proof.Proof.KernelSched

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A receive cell sits at level 2, -/
theorem lv_recv (j : Fin 3) (p : Dev nD) : lv (recvCell j p) () = 2 := by
  show (if 3 ≤ (recvS j).val ∧ (recvS j).val < 6 then 2 else 0) = 2
  exact if_pos ⟨by show 3 ≤ 3 + j.val; omega, by show 3 + j.val < 6; omega⟩
/-- a barrier cell at level 1. -/
theorem lv_bar (p : Dev nD) : lv (barCell p) () = 1 := rfl

/-- The three transfers' credits are owed to receive cells only. -/
theorem O₃_pos {c : Dev nD} {g : GSem nD τ sig} {u : Unit} (h : 0 < O₃ c g u) : ∃ j : Fin 3, g = recvCell j (fwd j c) := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At the barrier wait a device owes only the three transfers' credits: receive cells (level 2) above the barrier cell (level 1). -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g u hg => by
    obtain ⟨j, rfl⟩ := O₃_pos hg
    refine ⟨by rw [L_tc]; exact Finset.mem_singleton_self _, ?_⟩
    rw [lv_recv]; show (1 : ℕ) < 2; decide

/-! ## The launch: the cells and the duty tokens minted -/

theorem ownSemFacts : Pipeline.OwnSemFacts cfg0.spec osem := by decide

/-- A cell's semaphore as a number: the barrier 7, DMA semaphore q its own index. -/
abbrev semCode (s : SemLoc sig) : ℕ := match s with | .reg _ => 7 | .dma q => q.val

theorem csem_injective : Function.Injective csem := by
  intro k k' h
  have h' : semCode (csem k) = semCode (csem k') := congrArg semCode h
  clear h; revert k k'; decide

theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- The cells of the four devices. -/
def a2aCells : Finset (GSem nD τ sig) := Finset.univ.map ⟨kcell, kcell_injective⟩

/-- The ten duty tokens of a device's own cells, by index: the cell (three for the barrier, one for every other) -/
abbrev tk : Fin 10 → Fin 8 := ![0, 0, 0, 1, 2, 3, 4, 5, 6, 7]
/-- and the duty (the barrier's three, 0 for every other). -/
abbrev td : Fin 10 → Fin 3 := ![0, 1, 2, 0, 0, 0, 0, 0, 0, 0]
abbrev tokOf (ci : Dev nD × Fin 10) : GSem nD τ sig × ℕ × Fin 3 := (kcell (ci.1, tk ci.2), 0, td ci.2)

theorem tk_td_injective : ∀ i i' : Fin 10, tk i = tk i' → td i = td i' → i = i' := by decide

theorem tokOf_injective : Function.Injective (tokOf : Dev nD × Fin 10 → GSem nD τ sig × ℕ × Fin 3) := by
  rintro ⟨c, i⟩ ⟨c', i'⟩ h
  have h1 : (c, tk i) = (c', tk i') := kcell_injective (congrArg (fun x : GSem nD τ sig × ℕ × Fin 3 => x.1) h)
  have h2 : td i = td i' := congrArg (fun x : GSem nD τ sig × ℕ × Fin 3 => x.2.2) h
  have hc : c = c' := congrArg Prod.fst h1
  have hi : i = i' := tk_td_injective i i' (congrArg Prod.snd h1) h2
  subst hc; subst hi; rfl

def a2aToks : Finset (GSem nD τ sig × ℕ × Fin 3) := Finset.univ.map ⟨tokOf, tokOf_injective⟩

/-- The launch element: the pipeline library's (no staging cell here) beside the protocol's. -/
def u₀ : UU :=
  (initOf (Pipeline.cells cfgs cellOf_inj) (Pipeline.launchToks cfgs cellOf_inj), initOf a2aCells a2aToks)

/-- The duty tokens of device c's own cells, as minted. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0
    ∗ dutyTok ER (locCell c) 0 0)

/-- What the launch element deals device c: its eight cells' round states, positions and reached-marks, and its tokens. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
/-- The tokens minted for device c are its own cells' ten. -/
theorem toks_of_minted (c : Dev nD) :
    (bigSep Finset.univ fun i : Fin 10 => (dutyTok ER (tokOf (c, i)).1 (tokOf (c, i)).2.1 (tokOf (c, i)).2.2 : sProp 𝕄)) = toks c := by
  rw [bigSep_fin10]; rfl

omit [FloatOps F] in
/-- The protocol's launch element funds every device's G. -/
theorem fund_a2a : BI.own (ER (initOf a2aCells a2aToks)) ⊢ (|==> bigSep Finset.univ (G m) : sProp 𝕄) := by
  have hX (Φ : GSem nD τ sig → sProp 𝕄) :
      bigSep a2aCells Φ = bigSep Finset.univ fun c : Dev nD => bigSep Finset.univ fun k : Fin 8 => Φ (kcell (c, k)) := by
    rw [show a2aCells = Finset.univ.map ⟨kcell, kcell_injective⟩ from rfl, bigSep_map, bigSep_univ_prod]; rfl
  have hT : bigSep a2aToks (fun x => (dutyTok ER x.1 x.2.1 x.2.2 : sProp 𝕄)) = bigSep Finset.univ fun c : Dev nD => toks c := by
    rw [show a2aToks = Finset.univ.map ⟨tokOf, tokOf_injective⟩ from rfl, bigSep_map, bigSep_univ_prod]
    exact bigSep_congr fun c _ => toks_of_minted c
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  rw [show (G m : Dev nD → sProp 𝕄) = fun c => iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c) from rfl,
    bigSep_sep', bigSep_sep',
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep']
  isplitl [Hst']; · iexact Hst'
  isplitl [Hat' Hr']
  · isplitl [Hat'] <;> iassumption
  iexact Htok'

/-! ## The semaphores at zero, and the cells' invariants allocated -/

omit [FloatOps F] in
/-- The seven DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0 ∗ semVal (locCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: the counters of the device's eight cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨⟨S0, S1, S2, R0, R1, R2, HL⟩, HB⟩
  isplitl [HB]; · iexact HB
  isplitl [S0]; · iexact S0
  isplitl [S1]; · iexact S1
  isplitl [S2]; · iexact S2
  isplitl [R0]; · iexact R0
  isplitl [R1]; · iexact R1
  isplitl [R2]; · iexact R2
  iexact HL

omit [FloatOps F] in
/-- One device's cells: each counter at zero with its round state at zero makes the cell's invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  rw [show G m c = iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c) from rfl]
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt; the global step -/

/-- j steps forward, as a re-indexing of the devices (its inverse: j steps back). -/
def fwdE (j : Fin 3) : Dev nD ≃ Dev nD := ⟨fwd j, bwd j, bwd_fwd j, fwd_bwd j⟩

omit [FloatOps F] in
/-- The tokens dealt: duty d of device p's barrier cell goes to the device d steps back, which pays it; the token of
    p's receive cell j to the device j steps back; the send and local-copy tokens stay. Seen from the payer c: it gets
    duty j of the barrier cell and the token of receive cell j of the device j steps forward. -/
theorem toks_around : (bigSep Finset.univ fun c : Dev nD => (toks c : sProp 𝕄)) ⊢ bigSep Finset.univ fun c : Dev nD => payToks c := by
  rw [show (fun c : Dev nD => (toks c : sProp 𝕄)) = fun c => iprop(dutyTok ER (barCell c) 0 0 ∗ dutyTok ER (barCell c) 0 1 ∗ dutyTok ER (barCell c) 0 2
      ∗ dutyTok ER (sendCell 0 c) 0 0 ∗ dutyTok ER (sendCell 1 c) 0 0 ∗ dutyTok ER (sendCell 2 c) 0 0
      ∗ dutyTok ER (recvCell 0 c) 0 0 ∗ dutyTok ER (recvCell 1 c) 0 0 ∗ dutyTok ER (recvCell 2 c) 0 0
      ∗ dutyTok ER (locCell c) 0 0) from rfl,
    show (fun c : Dev nD => (payToks c : sProp 𝕄)) = fun c => iprop(
        (dutyTok ER (barCell (fwd 0 c)) 0 0 ∗ dutyTok ER (recvCell 0 (fwd 0 c)) 0 0 ∗ dutyTok ER (sendCell 0 c) 0 0)
      ∗ (dutyTok ER (barCell (fwd 1 c)) 0 1 ∗ dutyTok ER (recvCell 1 (fwd 1 c)) 0 0 ∗ dutyTok ER (sendCell 1 c) 0 0)
      ∗ (dutyTok ER (barCell (fwd 2 c)) 0 2 ∗ dutyTok ER (recvCell 2 (fwd 2 c)) 0 0 ∗ dutyTok ER (sendCell 2 c) 0 0)
      ∗ dutyTok ER (locCell c) 0 0) from rfl]
  repeat rw [bigSep_sep']
  rw [bigSep_univ_equiv (fwdE 0) (fun c : Dev nD => (dutyTok ER (barCell c) 0 0 : sProp 𝕄)),
    bigSep_univ_equiv (fwdE 1) (fun c : Dev nD => (dutyTok ER (barCell c) 0 1 : sProp 𝕄)),
    bigSep_univ_equiv (fwdE 2) (fun c : Dev nD => (dutyTok ER (barCell c) 0 2 : sProp 𝕄)),
    bigSep_univ_equiv (fwdE 0) (fun c : Dev nD => (dutyTok ER (recvCell 0 c) 0 0 : sProp 𝕄)),
    bigSep_univ_equiv (fwdE 1) (fun c : Dev nD => (dutyTok ER (recvCell 1 c) 0 0 : sProp 𝕄)),
    bigSep_univ_equiv (fwdE 2) (fun c : Dev nD => (dutyTok ER (recvCell 2 c) 0 0 : sProp 𝕄))]
  iintro ⟨B0, B1, B2, S0, S1, S2, R0, R1, R2, HL⟩
  isplitl [B0 R0 S0]
  · isplitl [B0]; · iexact B0
    isplitl [R0]; · iexact R0
    iexact S0
  isplitl [B1 R1 S1]
  · isplitl [B1]; · iexact B1
    isplitl [R1]; · iexact R1
    iexact S1
  isplitl [B2 R2 S2]
  · isplitl [B2]; · iexact B2
    isplitl [R2]; · iexact R2
    iexact S2
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 8 → ℕ) (c : Dev nD) : iprop(records m K ∗ linear c) ⊢ G' m c := by
  show iprop(records m K ∗ linear c) ⊢ iprop(∃ K, records m K ∗ linear c)
  iintro H
  iexists K
  iexact H

omit [FloatOps F] in
/-- All devices' allocated cells, positions, reached-marks and minted tokens, regrouped: the invariants and reached-marks
    of ALL cells to every device (they are persistent), each device's positions and the tokens of the duties it pays to it. -/
theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · iapply (show iprop((bigSep Finset.univ fun ck : Dev nD × Fin 8 => cellInv ER (a2aRd m) (K ck) (kcell ck))
        ∗ bigSep Finset.univ fun ck : Dev nD × Fin 8 => reached ER (kcell ck) 0) ⊢ records m K from Entails.of_eq rfl)
    isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => show _ ⊢ linear c from Entails.of_eq rfl))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Summed over the devices, device c's barrier cell is owed one unit by each of the three others (the device j steps
    back owes it with its signal j), and its receive cell j one block's credit by the device j steps back. -/
theorem creds (c : Dev nD) :
    (Pipeline.launchCred O₀ c : sProp 𝕄) ⊢ iprop(cred (tallyAt (barCell c) () 3)
      ∗ (cred (tallyAt (recvCell 0 c) () N) ∗ cred (tallyAt (recvCell 1 c) () N) ∗ cred (tallyAt (recvCell 2 c) () N))) := by
  have e : (Pipeline.launchCred O₀ c : sProp 𝕄)
      = iprop(((((Pipeline.launchCred (Rt 2) c ∗ Pipeline.launchCred (Rt 1) c) ∗ Pipeline.launchCred (Rt 0) c)
        ∗ Pipeline.launchCred (Bt 2) c) ∗ Pipeline.launchCred (Bt 1) c) ∗ Pipeline.launchCred (Bt 0) c) := by
    show Pipeline.launchCred (fun d => Rt 2 d + Rt 1 d + Rt 0 d + Bt 2 d + Bt 1 d + Bt 0 d) c = _
    rw [Pipeline.launchCred_add, Pipeline.launchCred_add, Pipeline.launchCred_add, Pipeline.launchCred_add, Pipeline.launchCred_add]
  have hB (j : Fin 3) : (Pipeline.launchCred (Bt j) c : sProp 𝕄) ⊢ cred (tallyAt (barCell c) () 1) :=
    Pipeline.launchCred_tallyAt (.reg barS) (fwd j) (bwd j) (fwd_bwd j) (bwd_fwd j) () 1 c
  have hR (j : Fin 3) : (Pipeline.launchCred (Rt j) c : sProp 𝕄) ⊢ cred (tallyAt (recvCell j c) () N) :=
    Pipeline.launchCred_tallyAt (.dma (recvS j)) (fwd j) (bwd j) (fwd_bwd j) (bwd_fwd j) () N c
  have h3 : (tallyAt (barCell c) () 3 : CellTallies nD τ sig Unit)
      = tallyAt (barCell c) () 1 + tallyAt (barCell c) () 1 + tallyAt (barCell c) () 1 := by
    rw [tallyAt_add, tallyAt_add]
  rw [e, h3]
  iintro ⟨⟨⟨⟨⟨R2, R1⟩, R0⟩, B2⟩, B1⟩, B0⟩
  isplitl [B0 B1 B2]
  · iapply (cred_add _ _).2
    isplitl [B0 B1]
    · iapply (cred_add _ _).2
      isplitl [B0]
      · iapply (hB 0); iexact B0
      · iapply (hB 1); iexact B1
    · iapply (hB 2); iexact B2
  isplitl [R0]; · iapply (hR 0); iexact R0
  isplitl [R1]; · iapply (hR 1); iexact R1
  iapply (hR 2); iexact R2

/-! ## The theorem's side conditions -/

omit [FloatOps F] in
theorem share_eq (c : Dev nD) (w : Fin cfg0.W) : (dats m 0 c).share w = fullShare := w.elim0

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-- What a device holds once launched, besides its scoped storage: the start state and its two arrays as launched. -/
def X (c : Dev nD) : sProp 𝕄 :=
  iprop(start m c ∗ (((c : Thread nD τ).loc main_arg0) ↦{fullShare} xin m c)
    ∗ (((c : Thread nD τ).loc main_v1) ↦{fullShare} m ((c : Thread nD τ).loc main_v1)))
/-- What it gives back: the input block unchanged, the result array at the exchanged contents. -/
def Y (c : Dev nD) : sProp 𝕄 :=
  iprop((((c : Thread nD τ).loc main_arg0) ↦{fullShare} xin m c) ∗ (((c : Thread nD τ).loc main_v1) ↦{fullShare} outAt m c))

omit [FloatOps F] in
/-- The two arrays are not staged: they arrive as the unscoped rest and are kept. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  ihave HG' := (show G' m c ⊢ iprop(∃ K, ghost m K c) from Entails.of_eq rfl) $$ HG
  imodintro
  iapply (show iprop((((∃ K, ghost m K c) ∗ cred (tallyAt (barCell c) () 3)
      ∗ (cred (tallyAt (recvCell 0 c) () N) ∗ cred (tallyAt (recvCell 1 c) () N) ∗ cred (tallyAt (recvCell 2 c) () N))
      ∗ levAts L lv) ∗ (((c : Thread nD τ).loc main_arg0) ↦{fullShare} m ((c : Thread nD τ).loc main_arg0))
      ∗ (((c : Thread nD τ).loc main_v1) ↦{fullShare} m ((c : Thread nD τ).loc main_v1))) ∗ emp) ⊢ iprop(X m c ∗ emp) from Entails.of_eq rfl)
  isplitl
  · isplitl [HG' H3 HN Hlev]
    · isplitl [HG']; · iexact HG'
      isplitl [H3]; · iexact H3
      isplitl [HN]; · iexact HN
      iexact Hlev
    isplitl [Hx]; · iexact Hx
    iexact Ho
  · iempintro

omit [FloatOps F] in
theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  iintro ⟨HX, -, -⟩
  ihave HX' := (show X m c ⊢ iprop(start m c ∗ (((c : Thread nD τ).loc main_arg0) ↦{fullShare} xin m c)
      ∗ (((c : Thread nD τ).loc main_v1) ↦{fullShare} m ((c : Thread nD τ).loc main_v1))) from Entails.of_eq rfl) $$ HX
  icases HX' with ⟨Hs, Hx, Ho⟩
  iapply (show iprop(start m c ∗ (((c : Thread nD τ).loc main_arg0) ↦{fullShare} xin m c)
      ∗ ∃ f, (((c : Thread nD τ).loc main_v1) ↦{fullShare} f)) ⊢ Φ₀ m c from Entails.of_eq rfl)
  isplitl [Hs]; · iexact Hs
  isplitl [Hx]; · iexact Hx
  iexists (m ((c : Thread nD τ).loc main_v1)); iexact Ho

omit [FloatOps F] in
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  iintro H
  ihave H' := (show Φ₁ m c ⊢ iprop((((c : Thread nD τ).loc main_arg0) ↦{fullShare} xin m c)
      ∗ (((c : Thread nD τ).loc main_v1) ↦{fullShare} outAt m c) ∗ Pipeline.ownSems0 osem c) from Entails.of_eq rfl) $$ H
  icases H' with ⟨Hx, Ho, Hs⟩
  isplitl [Hx Ho]
  · iapply (show iprop((((c : Thread nD τ).loc main_arg0) ↦{fullShare} xin m c)
      ∗ (((c : Thread nD τ).loc main_v1) ↦{fullShare} outAt m c)) ⊢ Y m c from Entails.of_eq rfl)
    isplitl [Hx] <;> iassumption
  isplitl [Hs]; · iexact Hs
  iempintro

/-- What is read off a device's final memory. -/
def QY (c : Dev nD) (mem : MemSt nD τ sig (Elt F)) : Prop :=
  mem.mem ((c : Thread nD τ).loc main_v1) = outAt m c ∧ mem.mem ((c : Thread nD τ).loc main_arg0) = m ((c : Thread nD τ).loc main_arg0)

omit [FloatOps F] in
/-- The two whole-array points-to, read against the state interpretation. -/
theorem read_final (c : Dev nD) (s' : Phys nD τ sig (Elt F)) :
    iprop(Y m c ∗ emp ∗ SI s') ⊢ |={Set.univ}=> iprop(⌜QY m c s'.mem⌝ ∗ (SI s' : sProp 𝕄)) := by
  iintro ⟨HY, -, HSI⟩
  ihave HY' := (show Y m c ⊢ iprop((((c : Thread nD τ).loc main_arg0) ↦{fullShare} xin m c)
      ∗ (((c : Thread nD τ).loc main_v1) ↦{fullShare} outAt m c)) from Entails.of_eq rfl) $$ HY
  icases HY' with ⟨Hx, Ho⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- the run, from the body obligation -/
theorem run_main_of (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      rw [show (u₀ : UU) = (initOf (Pipeline.cells cfgs cellOf_inj) (Pipeline.launchToks cfgs cellOf_inj), initOf a2aCells a2aToks) from rfl]
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_final m)
    (hQ := fun _ h c => (h c).2.2)

/-- info: 'Cert.Kernel.A2A.run_main_of' depends on axioms: [propext, Classical.choice, Quot.sound] -/
#guard_msgs in #print axioms run_main_of

end Cert.Kernel.A2A

end
-- ==== Proof.KernelBody.lean ====
/-
  One device's part of the exchange, step by step.

  Device c starts with its input block, its result array at any contents, and its eight cells at round 0. It cuts the result
  array into its four row blocks and the input block into its four column blocks. With signal j it hands row block fwd j c of its
  own result to the device fwd j c; the barrier wait for three units brings it row block c of the three other devices' results.
  Transfer j then writes column block fwd j c of its input into row block c of device fwd j c's result, which it holds; the local
  copy writes its own column block c into its own row block c. The three send waits bring the column blocks back, the local
  wait its own row block, written, and its own column block; receive wait j brings row block bwd j c of its result, written by the
  device bwd j c. Every landed row block holds, element by element, the exchanged contents outAt m c, so the four row blocks
  join to the result array at outAt m c and the four column blocks to the input block unchanged. The seven cells of its own
  scratch semaphores are closed at the end: their counters are zero again.
-/
import proofs.«900003_g7700000000000004_dist_a2a_v7x_i4_i_m2048_n512_f32_1_alg».proof.Proof.KernelSched
import proofs.«900003_g7700000000000004_dist_a2a_v7x_i4_i_m2048_n512_f32_1_alg».proof.Proof.KernelRegions
import proofs.«900003_g7700000000000004_dist_a2a_v7x_i4_i_m2048_n512_f32_1_alg».proof.Proof.KernelLaunch
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × Fin 8 → ℕ)

omit [FloatOps F] in
theorem inv_at (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)
omit [FloatOps F] in
theorem bigSep_fin0 (Φ : Fin 0 → sProp 𝕄) : bigSep Finset.univ Φ = iprop(emp) := rfl

/-- Signal j: device c pays duty j of the barrier cell of the device n = fwd j c (substituted, not rewritten), handing over
    row block n of its own result. -/
theorem step_signal (c n : Dev nD) (j : Fin 3) (hn : n = fwd j c) {α : Type} {Q : α → sProp 𝕄}
    {k : PUnit → Prog (TpuEff nD τ sig (Elt F) Λ₀ .tc) α}
    (f : Buf (Elt F) ((oS (fwd j c)).view.loc (c : Thread nD τ))) (O : CellTallies nD τ sig Unit) (W : Waits sig Unit) :
    iprop(cellInv ER (a2aRd m) (K (fwd j c, 0)) (barCell (fwd j c)) ∗ owes (c : Thread nD τ) (O + Bt j c) W
        ∗ dutyTok ER (barCell (fwd j c)) 0 j ∗ slotPts c (fwd j c) f ∗ reached ER (barCell (fwd j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨HI, HO, Htok, Hslot, Hr⟩
  iapply (Rounds.wp_signal 𝒱₀ ER (a2aRd m) (c : Thread nD τ) none (dst := (fwd j c : Thread nD τ)) (κ := K (fwd j c, 0))
      (d := j) (by rw [duties_bar]; exact Finset.mem_univ _) (amount_bar m (fwd j c) j) () O rfl)
  isplitl [HI]; · iexact HI
  isplitl [HO]; · iexact HO
  isplitl [Htok]; · iexact Htok
  isplitl [Hslot]
  · rw [payload_bar]; unfold barPay; rw [bwd_fwd]; iexists f; iexact Hslot
  iexact Hr

/-- The barrier wait: three units, the whole of the cell's one round; the three other devices' row blocks c come with it. -/
theorem step_wait_bar (c : Dev nD) {α : Type} {Q : α → sProp 𝕄}
    {k : PUnit → Prog (TpuEff nD τ sig (Elt F) Λ₀ .tc) α} (W : Waits sig Unit) :
    iprop(cellInv ER (a2aRd m) (K (c, 0)) (barCell c) ∗ cred (tallyAt (barCell c) () 3) ∗ owes (c : Thread nD τ) (O₃ c) W
        ∗ levAts L lv ∗ atPos ER (barCell c) 0 ∅ 0)
      ⊢ iprop(((owes (c : Thread nD τ) (O₃ c) (insert (SemLoc.reg barS, ()) W) ∗ atPos ER (barCell c) 1 ∅ 0
              ∗ (barPay c 0 ∗ barPay c 1 ∗ barPay c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨HI, Hc, HO, Hlev, Hat⟩ Hk
  iapply (Rounds.wp_wait_rest_token 𝒱₀ ER (a2aRd m) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- Transfer j: device c sends its column block (the one of n = fwd j c) into row block c of n's result, which it holds. -/
theorem step_send (c n : Dev nD) (j : Fin 3) (hn : n = fwd j c) (sS sR : DmaSem sig) (hS : sS = sendS j) (hR : sR = recvS j)
    {hsc : ((oS c) : Memref sig (Dev.tc n : Thread nD τ).2.kind .hbm S2048x512 .f32).view.ref.isScScratch = false}
    {hsrc : (xS j c).view.WordExact} {hdst : (oS c).view.WordExact}
    {hsem : DmaTarget.Typed .hbm (.dma sR) (.remote (Dev.tc n : Thread nD τ) (oS c) (.dma sS) hsc)}
    {α : Type} {Q : α → sProp 𝕄} {k : PUnit → Prog (TpuEff nD τ sig (Elt F) Λ₀ .tc) α}
    (fn : Buf (Elt F) ((oS c).view.loc (fwd j c : Thread nD τ))) (O : CellTallies nD τ sig Unit) (W : Waits sig Unit) :
    iprop(cellInv ER (a2aRd m) (K (c, kS j)) (sendCell j c) ∗ cellInv ER (a2aRd m) (K (fwd j c, kR j)) (recvCell j (fwd j c))
        ∗ xSPts j c (xin m c) ∗ slotPts (fwd j c) c fn
        ∗ owes (c : Thread nD τ) (O + Rt j c) W
        ∗ dutyTok ER (sendCell j c) 0 0 ∗ reached ER (sendCell j c) 0
        ∗ dutyTok ER (recvCell j (fwd j c)) 0 0 ∗ reached ER (recvCell j (fwd j c)) 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS j c) (.remote (Dev.tc n : Thread nD τ) (oS c) (.dma sS) hsc) (.dma sR) hsrc hdst hsem) k) Q) := by
  subst hn hS hR
  unfold xSPts slotPts
  exact Rounds.wp_send_pointsTo 𝒱₀ ER (a2aRd m) (c : Thread nD τ) none (src := xS j c) (dst := oS c) (c' := (fwd j c : Thread nD τ))
    (q := fullShare) (fs := xin m c) (κ₁ := K (c, kS j)) (κ₂ := K (fwd j c, kR j))
    (r₁ := 0) (r₂ := 0) (d₁ := 0) (d₂ := 0) (fd := fn)
    (by rw [duties_send]; exact Finset.mem_singleton_self _) (by rw [duties_recv]; exact Finset.mem_singleton_self _)
    () () N rfl (amount_send m c j 0) (amount_recv m (fwd j c) j 0) O rfl (W := W)
    (by rw [payload_send]; exact BI.Entails.refl _)
    (by rw [payload_recv]; exact recv_landed m j c fn)

/-- The local copy: column block c of the input into row block c of the result, through the local-copy cell. -/
theorem step_local (c : Dev nD) (sL : DmaSem sig) (hL : sL = locS)
    {hsrc : (xL c).view.WordExact} {hdst : (oS c).view.WordExact} {hsem : DmaTarget.Typed (nD := nD) .hbm (.dma sL) (DmaTarget.here (p := (c : Thread nD τ).2) (oS c))}
    {α : Type} {Q : α → sProp 𝕄} {k : PUnit → Prog (TpuEff nD τ sig (Elt F) Λ₀ .tc) α}
    (fd : Buf (Elt F) ((oS c).view.loc (c : Thread nD τ))) :
    iprop(cellInv ER (a2aRd m) (K (c, 7)) (locCell c) ∗ xLPts c (xin m c) ∗ slotPts c c fd
        ∗ dutyTok ER (locCell c) 0 0 ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xL c) (.here (oS c)) (.dma sL) hsrc hdst hsem) k) Q) := by
  subst hL
  unfold xLPts slotPts
  exact Rounds.wp_copy_pointsTo 𝒱₀ ER (a2aRd m) (c : Thread nD τ) none (src := xL c) (dst := oS c) (sem := .dma locS)
    (q := fullShare) (fs := xin m c) (fd := fd) (r := 0) (d := 0) (κ := K (c, 7))
    (by rw [duties_loc]; exact Finset.mem_singleton_self _) () N rfl (amount_loc m c 0)
    (by rw [payload_loc]; exact loc_landed m c fd)

/-- A DMA wait for the whole of a one-duty round of one of the device's own cells g, owing nothing: the duty's payload P. -/
theorem step_wait_dma (c : Dev nD) (q : DmaSem sig) (κ : ℕ) (P : sProp 𝕄)
    (hexp : (a2aRd (F := F) m).expect ((c : Thread nD τ), .dma q) 0 = N)
    (hrest : bigSep ((a2aRd (F := F) m).duties ((c : Thread nD τ), .dma q) 0 \ ∅) (fun d => (a2aRd (F := F) m).payload ((c : Thread nD τ), .dma q) 0 d) = P)
    {sp' : Space} {s' : Shape} {e' : EltTy}
    {src : Memref sig (c : Thread nD τ).2.kind sp' s' e'} {dst : Memref sig .tc .hbm S2048x512 .f32} {hsrc : src.view.WordExact} {hdst : dst.view.WordExact}
    {α : Type} {Q : α → sProp 𝕄} {k : PUnit → Prog (TpuEff nD τ sig (Elt F) Λ₀ .tc) α} (W : Waits sig Unit) :
    iprop(cellInv ER (a2aRd m) κ ((c : Thread nD τ), .dma q) ∗ cred (tallyAt ((c : Thread nD τ), .dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hcr : dst.view.dmaCredit = N := rfl
  iintro ⟨HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, hexp, hcr])) $$ [HI Hc HO Hat]
  · isplitl [HI]; · iexact HI
    isplitl [Hc]; · rw [hcr]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hrest); iexact Hpay

omit [FloatOps F] in
theorem bwd2_eq (c : Dev nD) : bwd 2 c = fwd 0 c := by revert c; decide
omit [FloatOps F] in
theorem bwd1_eq (c : Dev nD) : bwd 1 c = fwd 1 c := by revert c; decide
omit [FloatOps F] in
theorem bwd0_eq (c : Dev nD) : bwd 0 c = fwd 2 c := by revert c; decide
omit [FloatOps F] in
/-- A row block held on device s is held on the same device under another name. -/
theorem slot_on (s s' p : Dev nD) (h : s = s') : (iprop(∃ f, slotPts (F := F) s p f) : sProp 𝕄) ⊢ iprop(∃ f, slotPts s' p f) := by
  subst h; exact BI.Entails.refl _

set_option maxHeartbeats 3000000 in
/-- The body on device c, from the invariant before the one point to the invariant after it. -/
theorem body_obligation (c : Dev nD) : BodyObligation (dats (F := F) m 0 c) (defs₀ (F := F)) 𝒱₀ () Set.univ := fun t => by
  have ht := fin_N0 t
  subst ht
  show iprop(Φ₀ m c ∗ (dats m 0 c).owesAt () t0_0.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _) cc0_scratch0 cc0_scratch1 cc0_scratch2)
        (fun _ => iprop(Φ₁ m c ∗ (dats m 0 c).owesAt () t0_0.succ ∗ emp))
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold Φ₀ start ghost records linear positions payToks payTok Dat.owesAt Pipeline.owesWithin
  rw [bigSep_fin8]
  rw [show (dats m 0 c).owed t0_0.castSucc = O₃ c + Bt 2 c + Bt 1 c + Bt 0 c from rfl]
  iintro ⟨⟨⟨⟨%K, ⟨#HI, #HR⟩, ⟨Hb, Hs0, Hs1, Hs2, Hr0, Hr1, Hr2, Hl⟩, ⟨HtB0, HtR0, HtS0⟩, ⟨HtB1, HtR1, HtS1⟩, ⟨HtB2, HtR2, HtS2⟩, HtL⟩,
    HcB, ⟨HcR0, HcR1, HcR2⟩, #Hlev⟩, Hx, ⟨%f0, Hout⟩⟩, ⟨%W, %hW, HO⟩, -⟩
  -- the two arrays by blocks
  ihave Hx4 := (x_split c (xin m c)) $$ Hx
  icases Hx4 with ⟨HxL, HxS0, HxS1, HxS2⟩
  ihave Ho4 := (out_split c f0) $$ Hout
  icases Ho4 with ⟨HoL, Ho0, Ho1, Ho2⟩
  -- signal 0
  iapply (step_signal m K c _ 0 (dev1_eq c) f0 (O₃ c + Bt 2 c + Bt 1 c) W) $$ [HO HtB0 Ho0]
  · isplitr; · iapply (inv_at m K (fwd 0 c, 0)); iexact HI
    isplitl [HO]; · iexact HO
    isplitl [HtB0]; · iexact HtB0
    isplitl [Ho0]; · iexact Ho0
    iapply (reached_at (F := F) (fwd 0 c, 0)); iexact HR
  iintro HO
  -- signal 1
  iapply (step_signal m K c _ 1 (dev2_eq c) f0 (O₃ c + Bt 2 c) W) $$ [HO HtB1 Ho1]
  · isplitr; · iapply (inv_at m K (fwd 1 c, 0)); iexact HI
    isplitl [HO]; · iexact HO
    isplitl [HtB1]; · iexact HtB1
    isplitl [Ho1]; · iexact Ho1
    iapply (reached_at (F := F) (fwd 1 c, 0)); iexact HR
  iintro HO
  -- signal 2
  iapply (step_signal m K c _ 2 (dev3_eq c) f0 (O₃ c) W) $$ [HO HtB2 Ho2]
  · isplitr; · iapply (inv_at m K (fwd 2 c, 0)); iexact HI
    isplitl [HO]; · iexact HO
    isplitl [HtB2]; · iexact HtB2
    isplitl [Ho2]; · iexact Ho2
    iapply (reached_at (F := F) (fwd 2 c, 0)); iexact HR
  iintro HO
  -- the barrier wait: the three other devices' row blocks c
  iapply (step_wait_bar m K c W) $$ [HcB HO Hb]
  · isplitr; · iapply (inv_at m K (c, 0)); iexact HI
    isplitl [HcB]; · iexact HcB
    isplitl [HO]; · iexact HO
    isplitr; · iexact Hlev
    iexact Hb
  iintro ⟨HO, Hb, Hp0, Hp1, Hp2⟩
  unfold barPay
  ihave Hq0 := (slot_on (F := F) _ _ c (bwd2_eq c)) $$ Hp2
  ihave Hq1 := (slot_on (F := F) _ _ c (bwd1_eq c)) $$ Hp1
  ihave Hq2 := (slot_on (F := F) _ _ c (bwd0_eq c)) $$ Hp0
  icases Hq0 with ⟨%h0, Hh0⟩
  icases Hq1 with ⟨%h1, Hh1⟩
  icases Hq2 with ⟨%h2, Hh2⟩
  rw [show O₃ c = Rt 2 c + Rt 1 c + Rt 0 c from rfl]
  -- transfer 0
  iapply (step_send m K c _ 0 (dev4_eq c) _ _ rfl rfl h0 (Rt 2 c + Rt 1 c) _) $$ [HxS0 Hh0 HO HtS0 HtR0]
  · isplitr; · iapply (inv_at m K (c, kS 0)); iexact HI
    isplitr; · iapply (inv_at m K (fwd 0 c, kR 0)); iexact HI
    isplitl [HxS0]; · iexact HxS0
    isplitl [Hh0]; · iexact Hh0
    isplitl [HO]; · iexact HO
    isplitl [HtS0]; · iexact HtS0
    isplitr; · iapply (reached_at (F := F) (c, kS 0)); iexact HR
    isplitl [HtR0]; · iexact HtR0
    iapply (reached_at (F := F) (fwd 0 c, kR 0)); iexact HR
  iintro ⟨HcS0, HO⟩
  -- transfer 1
  iapply (step_send m K c _ 1 (dev5_eq c) _ _ rfl rfl h1 (Rt 2 c) _) $$ [HxS1 Hh1 HO HtS1 HtR1]
  · isplitr; · iapply (inv_at m K (c, kS 1)); iexact HI
    isplitr; · iapply (inv_at m K (fwd 1 c, kR 1)); iexact HI
    isplitl [HxS1]; · iexact HxS1
    isplitl [Hh1]; · iexact Hh1
    isplitl [HO]; · iexact HO
    isplitl [HtS1]; · iexact HtS1
    isplitr; · iapply (reached_at (F := F) (c, kS 1)); iexact HR
    isplitl [HtR1]; · iexact HtR1
    iapply (reached_at (F := F) (fwd 1 c, kR 1)); iexact HR
  iintro ⟨HcS1, HO⟩
  -- transfer 2
  ihave HO := (Entails.of_eq (congrArg (fun O => owes (c : Thread nD τ) O _) (zero_add (Rt 2 c)).symm)) $$ HO
  iapply (step_send m K c _ 2 (dev6_eq c) _ _ rfl rfl h2 (0) _) $$ [HxS2 Hh2 HO HtS2 HtR2]
  · isplitr; · iapply (inv_at m K (c, kS 2)); iexact HI
    isplitr; · iapply (inv_at m K (fwd 2 c, kR 2)); iexact HI
    isplitl [HxS2]; · iexact HxS2
    isplitl [Hh2]; · iexact Hh2
    isplitl [HO]; · iexact HO
    isplitl [HtS2]; · iexact HtS2
    isplitr; · iapply (reached_at (F := F) (c, kS 2)); iexact HR
    isplitl [HtR2]; · iexact HtR2
    iapply (reached_at (F := F) (fwd 2 c, kR 2)); iexact HR
  iintro ⟨HcS2, HO⟩
  -- the local copy
  iapply (step_local m K c _ rfl f0) $$ [HxL HoL HtL]
  · isplitr; · iapply (inv_at m K (c, 7)); iexact HI
    isplitl [HxL]; · iexact HxL
    isplitl [HoL]; · iexact HoL
    isplitl [HtL]; · iexact HtL
    iapply (reached_at (F := F) (c, 7)); iexact HR
  iintro HcL
  -- send wait 0
  iapply (step_wait_dma m c (sendS 0) (K (c, kS 0)) (sendPay m 0 c) (expect_send m c 0) (rest_send m c 0) _) $$ [HcS0 HO Hs0]
  · isplitr; · iapply (inv_at m K (c, kS 0)); iexact HI
    isplitl [HcS0]; · iexact HcS0
    isplitl [HO]; · iexact HO
    iexact Hs0
  iintro ⟨HO, Hs0, HxS0⟩
  -- send wait 1
  iapply (step_wait_dma m c (sendS 1) (K (c, kS 1)) (sendPay m 1 c) (expect_send m c 1) (rest_send m c 1) _) $$ [HcS1 HO Hs1]
  · isplitr; · iapply (inv_at m K (c, kS 1)); iexact HI
    isplitl [HcS1]; · iexact HcS1
    isplitl [HO]; · iexact HO
    iexact Hs1
  iintro ⟨HO, Hs1, HxS1⟩
  -- send wait 2
  iapply (step_wait_dma m c (sendS 2) (K (c, kS 2)) (sendPay m 2 c) (expect_send m c 2) (rest_send m c 2) _) $$ [HcS2 HO Hs2]
  · isplitr; · iapply (inv_at m K (c, kS 2)); iexact HI
    isplitl [HcS2]; · iexact HcS2
    isplitl [HO]; · iexact HO
    iexact Hs2
  iintro ⟨HO, Hs2, HxS2⟩
  -- local wait
  iapply (step_wait_dma m c (locS) (K (c, 7)) (locPay m c) (expect_loc m c) (rest_loc m c) _) $$ [HcL HO Hl]
  · isplitr; · iapply (inv_at m K (c, 7)); iexact HI
    isplitl [HcL]; · iexact HcL
    isplitl [HO]; · iexact HO
    iexact Hl
  iintro ⟨HO, Hl, HpL⟩
  -- receive wait 0
  iapply (step_wait_dma m c (recvS 0) (K (c, kR 0)) (recvPay m 0 c) (expect_recv m c 0) (rest_recv m c 0) _) $$ [HcR0 HO Hr0]
  · isplitr; · iapply (inv_at m K (c, kR 0)); iexact HI
    isplitl [HcR0]; · iexact HcR0
    isplitl [HO]; · iexact HO
    iexact Hr0
  iintro ⟨HO, Hr0, HpR0⟩
  -- receive wait 1
  iapply (step_wait_dma m c (recvS 1) (K (c, kR 1)) (recvPay m 1 c) (expect_recv m c 1) (rest_recv m c 1) _) $$ [HcR1 HO Hr1]
  · isplitr; · iapply (inv_at m K (c, kR 1)); iexact HI
    isplitl [HcR1]; · iexact HcR1
    isplitl [HO]; · iexact HO
    iexact Hr1
  iintro ⟨HO, Hr1, HpR1⟩
  -- receive wait 2
  iapply (step_wait_dma m c (recvS 2) (K (c, kR 2)) (recvPay m 2 c) (expect_recv m c 2) (rest_recv m c 2) _) $$ [HcR2 HO Hr2]
  · isplitr; · iapply (inv_at m K (c, kR 2)); iexact HI
    isplitl [HcR2]; · iexact HcR2
    isplitl [HO]; · iexact HO
    iexact Hr2
  iintro ⟨HO, Hr2, HpR2⟩
  -- the seven own cells close: their counters at zero are the device's again
  imod (Rounds.cell_close ER (a2aRd m) (Set.mem_univ (K (c, kS 0))) (fun h => h) (R := 0 + 1) (duties_later m (sendCell 0 c))) $$ [Hs0] with Hz0
  · isplitr; · iapply (inv_at m K (c, kS 0)); iexact HI
    iexact Hs0
  imod (Rounds.cell_close ER (a2aRd m) (Set.mem_univ (K (c, kS 1))) (fun h => h) (R := 0 + 1) (duties_later m (sendCell 1 c))) $$ [Hs1] with Hz1
  · isplitr; · iapply (inv_at m K (c, kS 1)); iexact HI
    iexact Hs1
  imod (Rounds.cell_close ER (a2aRd m) (Set.mem_univ (K (c, kS 2))) (fun h => h) (R := 0 + 1) (duties_later m (sendCell 2 c))) $$ [Hs2] with Hz2
  · isplitr; · iapply (inv_at m K (c, kS 2)); iexact HI
    iexact Hs2
  imod (Rounds.cell_close ER (a2aRd m) (Set.mem_univ (K (c, kR 0))) (fun h => h) (R := 0 + 1) (duties_later m (recvCell 0 c))) $$ [Hr0] with Hz3
  · isplitr; · iapply (inv_at m K (c, kR 0)); iexact HI
    iexact Hr0
  imod (Rounds.cell_close ER (a2aRd m) (Set.mem_univ (K (c, kR 1))) (fun h => h) (R := 0 + 1) (duties_later m (recvCell 1 c))) $$ [Hr1] with Hz4
  · isplitr; · iapply (inv_at m K (c, kR 1)); iexact HI
    iexact Hr1
  imod (Rounds.cell_close ER (a2aRd m) (Set.mem_univ (K (c, kR 2))) (fun h => h) (R := 0 + 1) (duties_later m (recvCell 2 c))) $$ [Hr2] with Hz5
  · isplitr; · iapply (inv_at m K (c, kR 2)); iexact HI
    iexact Hr2
  imod (Rounds.cell_close ER (a2aRd m) (Set.mem_univ (K (c, 7))) (fun h => h) (R := 0 + 1) (duties_later m (locCell c))) $$ [Hl] with Hz6
  · isplitr; · iapply (inv_at m K (c, 7)); iexact HI
    iexact Hl
  rw [wp_ret]; imodintro
  unfold locPay sendPay recvPay
  icases HpL with ⟨HoL, HxL⟩
  unfold Φ₁ Pipeline.ownSems0
  rw [show (dats m 0 c).owed t0_0.succ = 0 from rfl, bigSep_fin7]
  isplitl [HxL HxS0 HxS1 HxS2 HoL HpR0 HpR1 HpR2 Hz0 Hz1 Hz2 Hz3 Hz4 Hz5 Hz6]
  · isplitl [HxL HxS0 HxS1 HxS2]
    · iapply (x_join c (xin m c))
      isplitl [HxL]; · iexact HxL
      isplitl [HxS0]; · iexact HxS0
      isplitl [HxS1]; · iexact HxS1
      iexact HxS2
    isplitl [HoL HpR0 HpR1 HpR2]
    · iapply (out_join c (outAt m c))
      isplitl [HoL]; · iexact HoL
      isplitl [HpR0]; · iexact HpR0
      isplitl [HpR1]; · iexact HpR1
      iexact HpR2
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma (recvS 2), ()) (insert (SemLoc.dma (recvS 1), ()) (insert (SemLoc.dma (recvS 0), ())
      (insert (SemLoc.dma locS, ()) (insert (SemLoc.dma (sendS 2), ()) (insert (SemLoc.dma (sendS 1), ()) (insert (SemLoc.dma (sendS 0), ())
        (insert (SemLoc.reg barS, ()) W))))))))
    isplitr; · ipureintro; exact fun _ _ => Or.inl trivial
    iexact HO
  iempintro

end Body

/-- info: 'Cert.Kernel.A2A.body_obligation' depends on axioms: [propext, Classical.choice, Quot.sound] -/
#guard_msgs in #print axioms body_obligation

end Cert.Kernel.A2A

end
-- ==== Proof.KernelRun.lean ====
/-
  The exchange on the four devices: every device's body proved, the launch gives the run. From any memory with every
  semaphore at zero, every weakly fair execution terminates, faulting nowhere, with each device's result array at the
  exchanged contents and its input block unchanged.
-/
import proofs.«900003_g7700000000000004_dist_a2a_v7x_i4_i_m2048_n512_f32_1_alg».proof.Proof.KernelBody

noncomputable section

namespace Cert.Kernel.A2A

open Cert.Kernel Cert.Kernel.Gen
open Idealize.ShloMosaic Idealize.ShloMosaic.TcCoe Idealize.SL.Sem

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ (QC m) :=
  run_main_of m ρ (body_obligation m)

/-- info: 'Cert.Kernel.A2A.run_main' depends on axioms: [propext, Classical.choice, Quot.sound] -/
#guard_msgs in #print axioms run_main

end Cert.Kernel.A2A

end
-- ==== Proof.KernelIdealSched.lean ====
/-
  The all-to-all on four devices: the words the rest of the proof is written in.

  Device c holds the block x_c (2048 rows of 2048 columns) of the input. It sends the column block
  [512·p, 512·p + 512) of x_c to device p, for each of the three other devices p = c+1, c+2, c+3 (mod 4), into the row block
  [2048·c, 2048·c + 2048) of p's result, and copies its own column block c into its own row block c. So device p's result
  ends with row block s holding column block p of x_s, for every s: the column block p of the whole input.

  Before any transfer every device signals each of the three others once on the barrier semaphore and waits for three
  units: with its signal to p a device hands p the row block p of its own result, the elements p's transfer will write.
-/
import proofs.«900003_g7700000000000004_dist_a2a_v7x_i4_i_m2048_n512_f32_1_alg».proof.Proof.Gen.KernelIdeal
import proofs.«900003_g7700000000000004_dist_a2a_v7x_i4_i_m2048_n512_f32_1_alg».proof.Proof.Gen.KernelIdeal.Skeleton
import proofs.«900003_g7700000000000004_dist_a2a_v7x_i4_i_m2048_n512_f32_1_alg».proof.Proof.Gen.KernelIdeal.Launch
import proofs.«900003_g7700000000000004_dist_a2a_v7x_i4_i_m2048_n512_f32_1_alg».proof.Proof.Gen.KernelIdeal.Points
import proofs.«900003_g7700000000000004_dist_a2a_v7x_i4_i_m2048_n512_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties named by Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The devices: j steps forward, j steps back (j = 0, 1, 2 for distances 1, 2, 3) -/

def fwd (j : Fin 3) (c : Dev nD) : Dev nD := ⟨(c.val + j.val + 1) % 4, Nat.mod_lt _ (by decide)⟩
def bwd (j : Fin 3) (c : Dev nD) : Dev nD := ⟨(c.val + 3 - j.val) % 4, Nat.mod_lt _ (by decide)⟩

theorem bwd_fwd (j : Fin 3) (c : Dev nD) : bwd j (fwd j c) = c := by revert j c; decide
theorem fwd_bwd (j : Fin 3) (c : Dev nD) : fwd j (bwd j c) = c := by revert j c; decide
theorem fwd_ne (j : Fin 3) (c : Dev nD) : fwd j c ≠ c := by revert j c; decide
theorem bwd_ne (j : Fin 3) (c : Dev nD) : bwd j c ≠ c := by revert j c; decide
/-- The device j steps forward is 2 - j steps back. -/
def opp (j : Fin 3) : Fin 3 := ⟨2 - j.val, by omega⟩
theorem fwd_eq_bwd_opp (j : Fin 3) (c : Dev nD) : fwd j c = bwd (opp j) c := by revert j c; decide
theorem opp_opp (j : Fin 3) : opp (opp j) = j := by revert j; decide

/-- The kernel's device chains: signal j and transfer j name the device j steps forward. -/
theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 0 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 2 c := Fin.ext (k0_dev6_eq c)

/-! ## The memrefs -/

abbrev xM : Memref sig .tc .hbm S2048x2048 .f32 := Memref.whole main_arg0
abbrev oM : Memref sig .tc .hbm S8192x512 .f32 := Memref.whole main_v1

/-- The column block of the input that device c's transfer j reads: the block of the device j steps forward. -/
abbrev xS (j : Fin 3) (c : Dev nD) : Memref sig .tc .hbm S2048x512 .f32 :=
  xM.slice (Rect.unit (s := S2048x2048) (k0_off2 c (BitVec.ofNat 32 (1 + j.val))) S2048x512.size (k0_off2_inb c j)) (fun _ => rfl)
/-- Device c's own column block, which its local copy reads. -/
abbrev xL (c : Dev nD) : Memref sig .tc .hbm S2048x512 .f32 :=
  xM.slice (Rect.unit (s := S2048x2048) (k0_off3 c) S2048x512.size (k0_off3_inb c)) (fun _ => rfl)
/-- Row block c of a result array: what device c's transfers and local copy write, on whichever device. -/
abbrev oS (c : Dev nD) : Memref sig .tc .hbm S2048x512 .f32 :=
  oM.slice (Rect.unit (s := S8192x512) (k0_off1 c) S2048x512.size (k0_off1_inb c)) (fun _ => rfl)

/-! ## The semaphores and cells -/

abbrev barS : Sem sig := (SemArray.scalar (sig.barrier 0 rfl) : Sems sig S_).sem
def sendS (j : Fin 3) : DmaSem sig := ⟨j.val, by show j.val < 7; omega⟩
def recvS (j : Fin 3) : DmaSem sig := ⟨3 + j.val, by show 3 + j.val < 7; omega⟩
def locS : DmaSem sig := ⟨6, by decide⟩

abbrev barCell (c : Dev nD) : GSem nD τ sig := ((c : Thread nD τ), .reg barS)
abbrev sendCell (j : Fin 3) (c : Dev nD) : GSem nD τ sig := ((c : Thread nD τ), .dma (sendS j))
abbrev recvCell (j : Fin 3) (c : Dev nD) : GSem nD τ sig := ((c : Thread nD τ), .dma (recvS j))
abbrev locCell (c : Dev nD) : GSem nD τ sig := ((c : Thread nD τ), .dma locS)

/-- What one transfer of a 2048 × 512 block credits a DMA semaphore. -/
abbrev N : ℕ := (oS (0 : Dev nD)).view.dmaCredit
theorem N_pos : 0 < N := View.dmaCredit_pos _ (by decide)
theorem credit_oS (c : Dev nD) : (oS c).view.dmaCredit = N := rfl
theorem credit_xS (j : Fin 3) (c : Dev nD) : (xS j c).view.dmaCredit = N := rfl
theorem credit_xL (c : Dev nD) : (xL c).view.dmaCredit = N := rfl

/-! ## Contents -/

/-- Device c's input block as launched. -/
def xin (c : Dev nD) : Buf (Elt F) ((c : Thread nD τ).loc main_arg0) := m ((c : Thread nD τ).loc main_arg0)

/-- The device whose row block a result element lies in: row r is in block r / 2048. -/
def rowDev (i : S8192x512.Idx) : Dev nD :=
  ⟨(i 0).val / 2048, by have h : (i 0).val < 8192 := ValueIdx.idx2_lt0 i; show (i 0).val / 2048 < 4; omega⟩
/-- Where device p's result element (r, k) comes from in its source block: row r mod 2048, column 512·p + k. -/
def srcIdx (p : Dev nD) (i : S8192x512.Idx) : S2048x2048.Idx :=
  ValueIdx.ix2 (⟨(i 0).val % 2048, Nat.mod_lt _ (by decide)⟩ : Fin 2048)
    (⟨512 * p.val + (i 1).val, by have h : (i 1).val < 512 := ValueIdx.idx2_lt1 i; have hp : p.val < 4 := p.isLt; omega⟩ : Fin 2048)

/-- Device p's result after the exchange: element (r, k) is element (r mod 2048, 512·p + k) of the input block of
    device r / 2048. -/
def outAt (p : Dev nD) : Buf (Elt F) ((p : Thread nD τ).loc main_v1) := fun i => xin m (rowDev i) (srcIdx p i)

/-- Row block p of device s's result, at contents f. -/
def slotPts (s p : Dev nD) (f : Buf (Elt F) ((oS p).view.loc (s : Thread nD τ))) : sProp 𝕄 :=
  (oS p).view.loc (s : Thread nD τ) ↦[(oS p).view.set]{fullShare} f
/-- The column block of device c's input that its transfer j reads, at contents f. -/
def xSPts (j : Fin 3) (c : Dev nD) (f : Buf (Elt F) ((xS j c).view.loc (c : Thread nD τ))) : sProp 𝕄 :=
  (xS j c).view.loc (c : Thread nD τ) ↦[(xS j c).view.set]{fullShare} f
/-- Device c's own column block of its input, at contents f. -/
def xLPts (c : Dev nD) (f : Buf (Elt F) ((xL c).view.loc (c : Thread nD τ))) : sProp 𝕄 :=
  (xL c).view.loc (c : Thread nD τ) ↦[(xL c).view.set]{fullShare} f

omit [FloatOps F] in
instance slotPts_storable (s p : Dev nD) (f) : BI.Storable (upEmb : UEmb _ 𝕄) (slotPts (F := F) s p f) := by unfold slotPts; infer_instance
omit [FloatOps F] in
instance xSPts_storable (j : Fin 3) (c : Dev nD) (f) : BI.Storable (upEmb : UEmb _ 𝕄) (xSPts (F := F) j c f) := by unfold xSPts; infer_instance
omit [FloatOps F] in
instance xLPts_storable (c : Dev nD) (f) : BI.Storable (upEmb : UEmb _ 𝕄) (xLPts (F := F) c f) := by unfold xLPts; infer_instance

/-! ## The schedule: one round -/

/-- Duty d of device p's barrier cell is paid by the device d steps back, with row block p of ITS result. -/
def barPay (p : Dev nD) (d : Fin 3) : sProp 𝕄 := iprop(∃ f, slotPts (bwd d p) p f)
/-- A send cell's one duty hands the column block read back. -/
def sendPay (j : Fin 3) (c : Dev nD) : sProp 𝕄 := xSPts j c (xin m c)
/-- Receive cell j of device p is paid by the device j steps back: its row block of p's result, landed. -/
def recvPay (j : Fin 3) (p : Dev nD) : sProp 𝕄 := slotPts p (bwd j p) (outAt m p)
/-- The local copy's cell: the device's own row block landed and its own column block back. -/
def locPay (c : Dev nD) : sProp 𝕄 := iprop(slotPts c c (outAt m c) ∗ xLPts c (xin m c))

def a2aRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma q => if h : q.val < 3 then sendPay m ⟨q.val, h⟩ g.1.1
        else if h' : q.val < 6 then recvPay m ⟨q.val - 3, by omega⟩ g.1.1 else locPay m g.1.1
  amount_pos g _ _ _ := by
    cases g.2 with
    | reg _ => exact Nat.one_pos
    | dma _ => exact N_pos

instance a2aRd_payload_storable (g : GSem nD τ sig) (r : ℕ) (d : Fin 3) :
    BI.Storable (upEmb : UEmb _ 𝕄) ((a2aRd (F := F) m).payload g r d) := by
  obtain ⟨t, sm⟩ := g
  cases sm with
  | reg q => show BI.Storable upEmb (barPay t.1 d); unfold barPay; infer_instance
  | dma q =>
    show BI.Storable upEmb (if h : q.val < 3 then sendPay m ⟨q.val, h⟩ t.1
        else if h' : q.val < 6 then recvPay m ⟨q.val - 3, by omega⟩ t.1 else locPay m t.1)
    unfold sendPay recvPay locPay
    (repeat' split) <;> infer_instance

section Sched
variable (c : Dev nD) (j : Fin 3)

omit [FloatOps F] in
theorem duties_bar : (a2aRd (F := F) m).duties (barCell c) 0 = Finset.univ := by dsimp only [a2aRd]; exact if_pos ⟨rfl, rfl⟩
omit [FloatOps F] in
theorem duties_send : (a2aRd (F := F) m).duties (sendCell j c) 0 = {0} := by dsimp only [a2aRd]; exact if_pos ⟨rfl, rfl⟩
omit [FloatOps F] in
theorem duties_recv : (a2aRd (F := F) m).duties (recvCell j c) 0 = {0} := by dsimp only [a2aRd]; exact if_pos ⟨rfl, rfl⟩
omit [FloatOps F] in
theorem duties_loc : (a2aRd (F := F) m).duties (locCell c) 0 = {0} := by dsimp only [a2aRd]; exact if_pos ⟨rfl, rfl⟩
omit [FloatOps F] in
theorem duties_later (g : GSem nD τ sig) : ∀ r, 1 ≤ r → (a2aRd (F := F) m).duties g r = ∅ :=
  fun r hr => by dsimp only [a2aRd]; rw [if_neg fun h => by omega]

omit [FloatOps F] in
theorem amount_bar (d : Fin 3) : (a2aRd (F := F) m).amount (barCell c) 0 d = 1 := rfl
omit [FloatOps F] in
theorem amount_send (d : Fin 3) : (a2aRd (F := F) m).amount (sendCell j c) 0 d = N := rfl
omit [FloatOps F] in
theorem amount_recv (d : Fin 3) : (a2aRd (F := F) m).amount (recvCell j c) 0 d = N := rfl
omit [FloatOps F] in
theorem amount_loc (d : Fin 3) : (a2aRd (F := F) m).amount (locCell c) 0 d = N := rfl

omit [FloatOps F] in
theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
/-- A round with one duty expects that duty's amount. -/
theorem expect_of_single {G D 𝕄' : Type} [DecidableEq G] [DecidableEq D] [URA 𝕄'] (Rd : Rounds.Schedule G D 𝕄') {g : G} {r : ℕ} {d : D} {k : ℕ}
    (hd : Rd.duties g r = {d}) (hk : Rd.amount g r d = k) : Rd.expect g r = k := by
  unfold Schedule.expect Schedule.amountOf; rw [hd, Finset.sum_singleton, hk]
omit [FloatOps F] in
theorem expect_send : (a2aRd (F := F) m).expect (sendCell j c) 0 = N := expect_of_single _ (duties_send m c j) (amount_send m c j 0)
omit [FloatOps F] in
theorem expect_recv : (a2aRd (F := F) m).expect (recvCell j c) 0 = N := expect_of_single _ (duties_recv m c j) (amount_recv m c j 0)
omit [FloatOps F] in
theorem expect_loc : (a2aRd (F := F) m).expect (locCell c) 0 = N := expect_of_single _ (duties_loc m c) (amount_loc m c 0)
omit [FloatOps F] in
theorem payload_bar (d : Fin 3) : (a2aRd (F := F) m).payload (barCell c) 0 d = barPay c d := rfl
omit [FloatOps F] in
theorem payload_send (d : Fin 3) : (a2aRd (F := F) m).payload (sendCell j c) 0 d = sendPay m j c := by
  show (if h : (sendS j).val < 3 then sendPay m ⟨(sendS j).val, h⟩ c
        else if h' : (sendS j).val < 6 then recvPay m ⟨(sendS j).val - 3, by omega⟩ c else locPay m c) = _
  rw [dif_pos (show (sendS j).val < 3 from j.isLt)]; rfl
omit [FloatOps F] in
theorem payload_recv (d : Fin 3) : (a2aRd (F := F) m).payload (recvCell j c) 0 d = recvPay m j c := by
  show (if h : (recvS j).val < 3 then sendPay m ⟨(recvS j).val, h⟩ c
        else if h' : (recvS j).val < 6 then recvPay m ⟨(recvS j).val - 3, by omega⟩ c else locPay m c) = _
  have h3 : ¬ (recvS j).val < 3 := by show ¬ 3 + j.val < 3; omega
  have h6 : (recvS j).val < 6 := by show 3 + j.val < 6; omega
  rw [dif_neg h3, dif_pos h6]
  congr 1; exact Fin.ext (by show 3 + j.val - 3 = j.val; omega)
omit [FloatOps F] in
theorem payload_loc (d : Fin 3) : (a2aRd (F := F) m).payload (locCell c) 0 d = locPay m c := by
  show (if h : (locS).val < 3 then sendPay m ⟨(locS).val, h⟩ c
        else if h' : (locS).val < 6 then recvPay m ⟨(locS).val - 3, by omega⟩ c else locPay m c) = _
  rw [dif_neg (show ¬ (locS).val < 3 from by show ¬ (6 : ℕ) < 3; decide), dif_neg (show ¬ (locS).val < 6 from by show ¬ (6 : ℕ) < 6; decide)]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole of the barrier cell's round: the three row blocks the three other devices hand over. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, bigSep_fin3]; rfl
omit [FloatOps F] in
theorem rest_send : bigSep ((a2aRd (F := F) m).duties (sendCell j c) 0 \ ∅) (fun d => (a2aRd (F := F) m).payload (sendCell j c) 0 d) = sendPay m j c := by
  rw [Finset.sdiff_empty, duties_send, bigSep_singleton, payload_send]
omit [FloatOps F] in
theorem rest_recv : bigSep ((a2aRd (F := F) m).duties (recvCell j c) 0 \ ∅) (fun d => (a2aRd (F := F) m).payload (recvCell j c) 0 d) = recvPay m j c := by
  rw [Finset.sdiff_empty, duties_recv, bigSep_singleton, payload_recv]
omit [FloatOps F] in
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

/-! ## The cells of one device, by index -/

/-- Barrier; send 0, 1, 2; receive 0, 1, 2; local copy. -/
abbrev csem : Fin 8 → SemLoc sig := fun
  | 0 => .reg barS | 1 => .dma (sendS 0) | 2 => .dma (sendS 1) | 3 => .dma (sendS 2)
  | 4 => .dma (recvS 0) | 5 => .dma (recvS 1) | 6 => .dma (recvS 2) | 7 => .dma locS
abbrev kcell (ck : Dev nD × Fin 8) : GSem nD τ sig := ((ck.1 : Thread nD τ), csem ck.2)
def kS (j : Fin 3) : Fin 8 := ⟨1 + j.val, by omega⟩
def kR (j : Fin 3) : Fin 8 := ⟨4 + j.val, by omega⟩
theorem kcell_bar (c : Dev nD) : kcell (c, 0) = barCell c := rfl
theorem kcell_send (j : Fin 3) (c : Dev nD) : kcell (c, kS j) = sendCell j c := by fin_cases j <;> rfl
theorem kcell_recv (j : Fin 3) (c : Dev nD) : kcell (c, kR j) = recvCell j c := by fin_cases j <;> rfl
theorem kcell_loc (c : Dev nD) : kcell (c, 7) = locCell c := rfl

/-- The kernel's own (scoped) semaphores, as the launch indexes them: the seven DMA semaphores. -/
abbrev osem : Fin 7 → SemLoc sig := fun k => .dma k

/-! ## What each device owes at launch; the levels -/

/-- The unit device c owes the barrier cell of the device j steps forward, -/
def Bt (j : Fin 3) (c : Dev nD) : CellTallies nD τ sig Unit := tallyAt (barCell (fwd j c)) () 1
/-- and the block's credit it owes that device's receive cell j. -/
def Rt (j : Fin 3) (c : Dev nD) : CellTallies nD τ sig Unit := tallyAt (recvCell j (fwd j c)) () N
/-- After the three signals: the three transfers' credits, summed so that transfer 0 peels the last summand. -/
def O₃ (c : Dev nD) : CellTallies nD τ sig Unit := Rt 2 c + Rt 1 c + Rt 0 c
/-- At launch: those and the three signals' units, signal 0's the last summand. -/
def O₀ (c : Dev nD) : CellTallies nD τ sig Unit := O₃ c + Bt 2 c + Bt 1 c + Bt 0 c

def L (g : GSem nD τ sig) : Finset Unit := if g.1.2 = .tc then {()} else ∅
/-- Barrier cells at 1, receive cells at 2, send and local-copy cells at 0. -/
def lv (g : GSem nD τ sig) (_ : Unit) : ℕ := match g.2 with | .reg _ => 1 | .dma q => if 3 ≤ q.val ∧ q.val < 6 then 2 else 0

/-! ## The ghost state a device's body starts from -/

/-- Every cell's invariant, under the names K the launch allocated them at, and that every cell has reached round 0. -/
def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

instance records_persistent (K : Dev nD × Fin 8 → ℕ) : BI.Persistent (records m K) := by unfold records; infer_instance

/-- The tokens of the duties device c pays with step j: its signal's duty (duty j of the barrier cell j steps forward), its
    transfer's two duties (receive cell j of that device, its own send cell j). -/
def payTok (j : Fin 3) (c : Dev nD) : sProp 𝕄 :=
  iprop(dutyTok ER (barCell (fwd j c)) 0 j ∗ dutyTok ER (recvCell j (fwd j c)) 0 0 ∗ dutyTok ER (sendCell j c) 0 0)
def payToks (c : Dev nD) : sProp 𝕄 := iprop(payTok 0 c ∗ payTok 1 c ∗ payTok 2 c ∗ dutyTok ER (locCell c) 0 0)
/-- Device c's positions: at round 0 of each of its eight cells, nothing taken or consumed. -/
def positions (c : Dev nD) : sProp 𝕄 := bigSep Finset.univ fun k : Fin 8 => atPos ER (kcell (c, k)) 0 ∅ 0
def linear (c : Dev nD) : sProp 𝕄 := iprop(positions c ∗ payToks c)
def ghost (K : Dev nD × Fin 8 → ℕ) (c : Dev nD) : sProp 𝕄 := iprop(records m K ∗ linear c)

/-- What device c's body starts from besides its arrays: the ghost state at some names, the credit of its barrier's three
    units and of its three receive cells, and the level facts. -/
def start (c : Dev nD) : sProp 𝕄 :=
  iprop((∃ K, ghost m K c) ∗ cred (tallyAt (barCell c) () 3)
    ∗ (cred (tallyAt (recvCell 0 c) () N) ∗ cred (tallyAt (recvCell 1 c) () N) ∗ cred (tallyAt (recvCell 2 c) () N))
    ∗ levAts L lv)

/-- Before the body: that, the input block as launched and the result array at any contents. -/
def Φ₀ (c : Dev nD) : sProp 𝕄 :=
  iprop(start m c ∗ (((c : Thread nD τ).loc main_arg0) ↦{fullShare} xin m c) ∗ ∃ f, (((c : Thread nD τ).loc main_v1) ↦{fullShare} f))
/-- After it: the input block unchanged, the result array at the exchanged contents, the seven own semaphores at zero. -/
def Φ₁ (c : Dev nD) : sProp 𝕄 :=
  iprop((((c : Thread nD τ).loc main_arg0) ↦{fullShare} xin m c) ∗ (((c : Thread nD τ).loc main_v1) ↦{fullShare} outAt m c)
    ∗ Pipeline.ownSems0 osem c)

/-- The pipeline's proof data: no window; the invariant before and after the one point; what is owed before and after it. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The run's post: every device's result array at the exchanged contents, its input block unchanged. -/
def QC : PUnit × MemSt nD τ sig (Elt F) → Prop := fun r =>
  ∀ c : Dev nD, r.2.mem ((c : Thread nD τ).loc main_v1) = outAt m c
    ∧ r.2.mem ((c : Thread nD τ).loc main_arg0) = m ((c : Thread nD τ).loc main_arg0)

end Cert.KernelIdeal.A2A

end
-- ==== Proof.KernelIdealRegions.lean ====
/-
  The geometry of the exchange.

  Device c's result array has 8192 rows of 512 columns; row block p is rows [2048·p, 2048·p + 2048). The four row blocks
  are pairwise disjoint and cover every index, so the whole array is the four blocks side by side, in whichever order the
  four devices are listed (c and the three devices forward of it, or c and the three devices back of it).
  Device c's input block has 2048 rows of 2048 columns; column block p is columns [512·p, 512·p + 512). The device's own
  column block and the three column blocks its transfers read (those of the devices 1, 2, 3 steps forward) are again four
  disjoint blocks that cover every index.

  Transfer j of device s writes row block s of the result of the device p, j steps forward, with column block p of s's
  input block: at element (2048·s + r, k) that is x_s (r, 512·p + k), which is what the exchanged result holds there,
  since that row lies in row block s and its source index is (r, 512·p + k). The local copy is the same with p = s.
-/
import proofs.«900003_g7700000000000004_dist_a2a_v7x_i4_i_m2048_n512_f32_1_alg».proof.Proof.KernelIdealSched
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which elements each block holds -/

/-- Row block p of a result array: the rows from 2048·p up to 2048·p + 2048, every column. -/
theorem mem_oS (p : Dev nD) (i : S8192x512.Idx) :
    i ∈ (oS p).view.set ↔ 2048 * p.val ≤ (i 0).val ∧ (i 0).val < 2048 * p.val + 2048 := by
  rw [show (oS p).view.set = (Rect.unit (s := S8192x512) (k0_off1 p) S2048x512.size (k0_off1_inb p)).set from
    View.set_slice_whole _ _, Rect.mem_set_unit, Gen.k0_off1_eq, Fin.forall_fin_two]
  have h1 : (i 1).val < 512 := ValueIdx.idx2_lt1 i
  show (2048 * p.val ≤ (i 0).val ∧ (i 0).val < 2048 * p.val + 2048) ∧ (0 ≤ (i 1).val ∧ (i 1).val < 0 + 512) ↔ _
  omega

/-- A device's own column block of its input: the columns from 512·c up to 512·c + 512, every row. -/
theorem mem_xL (c : Dev nD) (i : S2048x2048.Idx) :
    i ∈ (xL c).view.set ↔ 512 * c.val ≤ (i 1).val ∧ (i 1).val < 512 * c.val + 512 := by
  rw [show (xL c).view.set = (Rect.unit (s := S2048x2048) (k0_off3 c) S2048x512.size (k0_off3_inb c)).set from
    View.set_slice_whole _ _, Rect.mem_set_unit, Gen.k0_off3_eq, Fin.forall_fin_two]
  have h0 : (i 0).val < 2048 := ValueIdx.idx2_lt0 i
  show (0 ≤ (i 0).val ∧ (i 0).val < 0 + 2048) ∧ (512 * c.val ≤ (i 1).val ∧ (i 1).val < 512 * c.val + 512) ↔ _
  omega

/-- The column block transfer j reads: that of the device j steps forward. -/
theorem mem_xS (j : Fin 3) (c : Dev nD) (i : S2048x2048.Idx) :
    i ∈ (xS j c).view.set ↔ 512 * (fwd j c).val ≤ (i 1).val ∧ (i 1).val < 512 * (fwd j c).val + 512 := by
  rw [show (xS j c).view.set = (Rect.unit (s := S2048x2048) (k0_off2 c (BitVec.ofNat 32 (1 + j.val))) S2048x512.size
      (k0_off2_inb c j)).set from View.set_slice_whole _ _, Rect.mem_set_unit, Gen.k0_off2_eq, Fin.forall_fin_two]
  have h0 : (i 0).val < 2048 := ValueIdx.idx2_lt0 i
  show (0 ≤ (i 0).val ∧ (i 0).val < 0 + 2048)
      ∧ (512 * ((c.val + j.val + 1) % 4) ≤ (i 1).val ∧ (i 1).val < 512 * ((c.val + j.val + 1) % 4) + 512) ↔
    512 * ((c.val + j.val + 1) % 4) ≤ (i 1).val ∧ (i 1).val < 512 * ((c.val + j.val + 1) % 4) + 512
  omega

/-! ## The four devices -/

theorem four_fwd (c p : Dev nD) : p = c ∨ p = fwd 0 c ∨ p = fwd 1 c ∨ p = fwd 2 c := by revert c p; decide
theorem four_bwd (c p : Dev nD) : p = c ∨ p = bwd 0 c ∨ p = bwd 1 c ∨ p = bwd 2 c := by revert c p; decide
theorem fwd_fwd_ne (j j' : Fin 3) (h : j ≠ j') (c : Dev nD) : fwd j c ≠ fwd j' c := by revert j j' c; decide
theorem bwd_bwd_ne (j j' : Fin 3) (h : j ≠ j') (c : Dev nD) : bwd j c ≠ bwd j' c := by revert j j' c; decide

/-! ## Disjointness and cover -/

/-- Row blocks of different devices share no element. -/
theorem oS_disjoint {p p' : Dev nD} (h : p ≠ p') : Disjoint (oS p).view.set (oS p').view.set :=
  Finset.disjoint_left.mpr fun i h1 h2 => by
    rw [mem_oS] at h1 h2
    have hv : p.val ≠ p'.val := fun e => h (Fin.ext e)
    omega

/-- Every result index lies in the row block of its row's device. -/
theorem oS_cover (i : S8192x512.Idx) : i ∈ (oS (rowDev i)).view.set := by
  rw [mem_oS]
  show 2048 * ((i 0).val / 2048) ≤ (i 0).val ∧ (i 0).val < 2048 * ((i 0).val / 2048) + 2048
  omega

theorem oS_cover_of {p : Dev nD} (i : S8192x512.Idx) (h : rowDev i = p) : i ∈ (oS p).view.set := h ▸ oS_cover i

/-- The device whose column block an input index lies in: column k is in block k / 512. -/
def colDev (i : S2048x2048.Idx) : Dev nD :=
  ⟨(i 1).val / 512, by have h : (i 1).val < 2048 := ValueIdx.idx2_lt1 i; show (i 1).val / 512 < 4; omega⟩

theorem xL_xS_disjoint (j : Fin 3) (c : Dev nD) : Disjoint (xL c).view.set (xS j c).view.set :=
  Finset.disjoint_left.mpr fun i h1 h2 => by
    rw [mem_xL] at h1; rw [mem_xS] at h2
    have hv : (fwd j c).val ≠ c.val := fun e => fwd_ne j c (Fin.ext e)
    omega

theorem xS_disjoint {j j' : Fin 3} (h : j ≠ j') (c : Dev nD) : Disjoint (xS j c).view.set (xS j' c).view.set :=
  Finset.disjoint_left.mpr fun i h1 h2 => by
    rw [mem_xS] at h1 h2
    have hv : (fwd j c).val ≠ (fwd j' c).val := fun e => fwd_fwd_ne j j' h c (Fin.ext e)
    omega

theorem xL_cover (c : Dev nD) (i : S2048x2048.Idx) (h : colDev i = c) : i ∈ (xL c).view.set := by
  rw [mem_xL, ← h]
  show 512 * ((i 1).val / 512) ≤ (i 1).val ∧ (i 1).val < 512 * ((i 1).val / 512) + 512
  omega

theorem xS_cover (j : Fin 3) (c : Dev nD) (i : S2048x2048.Idx) (h : colDev i = fwd j c) : i ∈ (xS j c).view.set := by
  rw [mem_xS, ← h]
  show 512 * ((i 1).val / 512) ≤ (i 1).val ∧ (i 1).val < 512 * ((i 1).val / 512) + 512
  omega

/-! ## A buffer held whole is held by four disjoint parts that cover it, and back -/

omit [FloatOps F] in
theorem pts_four {ℓ : Loc nD τ sig} (S0 S1 S2 S3 : Finset (Idx ℓ)) (f : Buf (Elt F) ℓ)
    (h01 : Disjoint S0 S1) (h02 : Disjoint S0 S2) (h03 : Disjoint S0 S3)
    (h12 : Disjoint S1 S2) (h13 : Disjoint S1 S3) (h23 : Disjoint S2 S3)
    (hcov : ∀ i, i ∈ S0 ∨ i ∈ S1 ∨ i ∈ S2 ∨ i ∈ S3) :
    ((ℓ ↦{fullShare} f) : sProp 𝕄)
      ⊣⊢ iprop((ℓ ↦[S0]{fullShare} f) ∗ (ℓ ↦[S1]{fullShare} f) ∗ (ℓ ↦[S2]{fullShare} f) ∗ (ℓ ↦[S3]{fullShare} f)) := by
  have e : (Finset.univ : Finset (Idx ℓ)) = S0 ∪ (S1 ∪ (S2 ∪ S3)) := by
    ext i; simp only [Finset.mem_univ, Finset.mem_union, true_iff]; exact hcov i
  rw [e]
  have d0 : Disjoint S0 (S1 ∪ (S2 ∪ S3)) :=
    Finset.disjoint_union_right.mpr ⟨h01, Finset.disjoint_union_right.mpr ⟨h02, h03⟩⟩
  have d1 : Disjoint S1 (S2 ∪ S3) := Finset.disjoint_union_right.mpr ⟨h12, h13⟩
  exact (Region.is_union d0).trans (sep_congr_right ((Region.is_union d1).trans (sep_congr_right (Region.is_union h23))))

/-! ## The result array by row blocks -/

omit [FloatOps F] in
/-- The result array of device c is its own row block and those of the three devices forward of it. -/
theorem out_fwd (c : Dev nD) (f : Buf (Elt F) ((c : Thread nD τ).loc main_v1)) :
    ((((c : Thread nD τ).loc main_v1) ↦{fullShare} f) : sProp 𝕄)
      ⊣⊢ iprop(slotPts c c f ∗ slotPts c (fwd 0 c) f ∗ slotPts c (fwd 1 c) f ∗ slotPts c (fwd 2 c) f) :=
  pts_four (ℓ := (c : Thread nD τ).loc main_v1) (oS c).view.set (oS (fwd 0 c)).view.set (oS (fwd 1 c)).view.set
    (oS (fwd 2 c)).view.set f
    (oS_disjoint (fwd_ne 0 c).symm) (oS_disjoint (fwd_ne 1 c).symm) (oS_disjoint (fwd_ne 2 c).symm)
    (oS_disjoint (fwd_fwd_ne 0 1 (by decide) c)) (oS_disjoint (fwd_fwd_ne 0 2 (by decide) c))
    (oS_disjoint (fwd_fwd_ne 1 2 (by decide) c))
    fun i => (four_fwd c (rowDev i)).imp (fun h => oS_cover_of i h)
      (Or.imp (fun h => oS_cover_of i h) (Or.imp (fun h => oS_cover_of i h) fun h => oS_cover_of i h))

omit [FloatOps F] in
/-- The same array is its own row block and those of the three devices back of it. -/
theorem out_bwd (c : Dev nD) (f : Buf (Elt F) ((c : Thread nD τ).loc main_v1)) :
    ((((c : Thread nD τ).loc main_v1) ↦{fullShare} f) : sProp 𝕄)
      ⊣⊢ iprop(slotPts c c f ∗ slotPts c (bwd 0 c) f ∗ slotPts c (bwd 1 c) f ∗ slotPts c (bwd 2 c) f) :=
  pts_four (ℓ := (c : Thread nD τ).loc main_v1) (oS c).view.set (oS (bwd 0 c)).view.set (oS (bwd 1 c)).view.set
    (oS (bwd 2 c)).view.set f
    (oS_disjoint (bwd_ne 0 c).symm) (oS_disjoint (bwd_ne 1 c).symm) (oS_disjoint (bwd_ne 2 c).symm)
    (oS_disjoint (bwd_bwd_ne 0 1 (by decide) c)) (oS_disjoint (bwd_bwd_ne 0 2 (by decide) c))
    (oS_disjoint (bwd_bwd_ne 1 2 (by decide) c))
    fun i => (four_bwd c (rowDev i)).imp (fun h => oS_cover_of i h)
      (Or.imp (fun h => oS_cover_of i h) (Or.imp (fun h => oS_cover_of i h) fun h => oS_cover_of i h))

omit [FloatOps F] in
theorem out_split (c : Dev nD) (f : Buf (Elt F) ((c : Thread nD τ).loc main_v1)) :
    ((((c : Thread nD τ).loc main_v1) ↦{fullShare} f) : sProp 𝕄)
      ⊢ iprop(slotPts c c f ∗ slotPts c (fwd 0 c) f ∗ slotPts c (fwd 1 c) f ∗ slotPts c (fwd 2 c) f) :=
  (out_fwd c f).mp

omit [FloatOps F] in
theorem out_join (c : Dev nD) (f : Buf (Elt F) ((c : Thread nD τ).loc main_v1)) :
    (iprop(slotPts c c f ∗ slotPts c (bwd 0 c) f ∗ slotPts c (bwd 1 c) f ∗ slotPts c (bwd 2 c) f) : sProp 𝕄)
      ⊢ (((c : Thread nD τ).loc main_v1) ↦{fullShare} f) :=
  (out_bwd c f).mpr

/-! ## The input block by column blocks -/

omit [FloatOps F] in
/-- The input block of device c is its own column block and the three its transfers read. -/
theorem x_cut (c : Dev nD) (f : Buf (Elt F) ((c : Thread nD τ).loc main_arg0)) :
    ((((c : Thread nD τ).loc main_arg0) ↦{fullShare} f) : sProp 𝕄)
      ⊣⊢ iprop(xLPts c f ∗ xSPts 0 c f ∗ xSPts 1 c f ∗ xSPts 2 c f) :=
  pts_four (ℓ := (c : Thread nD τ).loc main_arg0) (xL c).view.set (xS 0 c).view.set (xS 1 c).view.set
    (xS 2 c).view.set f
    (xL_xS_disjoint 0 c) (xL_xS_disjoint 1 c) (xL_xS_disjoint 2 c)
    (xS_disjoint (by decide) c) (xS_disjoint (by decide) c) (xS_disjoint (by decide) c)
    fun i => (four_fwd c (colDev i)).imp (fun h => xL_cover c i h)
      (Or.imp (fun h => xS_cover 0 c i h) (Or.imp (fun h => xS_cover 1 c i h) fun h => xS_cover 2 c i h))

omit [FloatOps F] in
theorem x_split (c : Dev nD) (f : Buf (Elt F) ((c : Thread nD τ).loc main_arg0)) :
    ((((c : Thread nD τ).loc main_arg0) ↦{fullShare} f) : sProp 𝕄)
      ⊢ iprop(xLPts c f ∗ xSPts 0 c f ∗ xSPts 1 c f ∗ xSPts 2 c f) :=
  (x_cut c f).mp

omit [FloatOps F] in
theorem x_join (c : Dev nD) (f : Buf (Elt F) ((c : Thread nD τ).loc main_arg0)) :
    (iprop(xLPts c f ∗ xSPts 0 c f ∗ xSPts 1 c f ∗ xSPts 2 c f) : sProp 𝕄)
      ⊢ (((c : Thread nD τ).loc main_arg0) ↦{fullShare} f) :=
  (x_cut c f).mpr

/-! ## What a landing leaves -/

/-- Element y of row block s sits at row 2048·s + y₀, column y₁ of the result array. -/
theorem oS_emb_val (s : Dev nD) (y : S2048x512.Idx) :
    (((oS s).view.emb y : S8192x512.Idx) 0).val = 2048 * s.val + (y 0).val
      ∧ (((oS s).view.emb y : S8192x512.Idx) 1).val = (y 1).val := by
  have h := Gen.k0_off1_eq s
  constructor
  · show k0_off1 s 0 + 1 * (y 0).val = _
    rw [h]; show 2048 * s.val + 1 * (y 0).val = _; omega
  · show k0_off1 s 1 + 1 * (y 1).val = _
    rw [h]; show 0 + 1 * (y 1).val = _; omega

/-- The exchanged result at an index whose row's device and source index are known. -/
theorem outAt_eq (p s : Dev nD) (i : S8192x512.Idx) (x : S2048x2048.Idx) (hr : rowDev i = s) (hx : srcIdx p i = x) :
    outAt m p i = xin m s x := by
  subst hr; subst hx; rfl

/-- Row block s of device p's result, written with column block p of device s's input block (the 2048 × 512 block at
    offsets (0, 512·p)), holds the exchanged result: element (2048·s + r, k) takes x_s (r, 512·p + k), its row lies in row
    block s, and its source index is (r, 512·p + k). -/
theorem land (p s : Dev nD) (off : Fin 2 → ℕ) (inb : ∀ a, off a + S2048x512.size a ≤ S2048x2048.size a)
    (hoff : off = ![0, 512 * p.val]) (fd : Buf (Elt F) ((oS s).view.loc (p : Thread nD τ))) :
    ∀ i ∈ (oS s).view.set,
      (oS s).view.write (Elt F) fd
          ((xM.slice (Rect.unit (s := S2048x2048) off S2048x512.size inb) (fun _ => rfl)).view.read (Elt F) (xin m s))
          Finset.univ i
        = outAt m p i := by
  intro i hi
  have hb := (mem_oS s i).mp hi
  have h1 : (i 1).val < 512 := ValueIdx.idx2_lt1 i
  have hs : s.val < 4 := s.isLt
  -- the element's place in the block: row i₀ - 2048·s, column i₁
  obtain ⟨y, hy0, hy1⟩ : ∃ y : S2048x512.Idx, (y 0).val = (i 0).val - 2048 * s.val ∧ (y 1).val = (i 1).val :=
    ⟨ValueIdx.ix2 (⟨(i 0).val - 2048 * s.val, by omega⟩ : Fin 2048) (⟨(i 1).val, h1⟩ : Fin 512), rfl, rfl⟩
  have hy : (oS s).view.emb y = i := by
    funext a
    refine Fin.ext ?_
    match a with
    | ⟨0, _⟩ =>
      show (((oS s).view.emb y : S8192x512.Idx) 0).val = (i 0).val
      rw [(oS_emb_val s y).1, hy0]; omega
    | ⟨1, _⟩ =>
      show (((oS s).view.emb y : S8192x512.Idx) 1).val = (i 1).val
      rw [(oS_emb_val s y).2, hy1]
  have hrow : rowDev i = s := Fin.ext (by show (i 0).val / 2048 = s.val; omega)
  have hsrc : srcIdx p i
      = (xM.slice (Rect.unit (s := S2048x2048) off S2048x512.size inb) (fun _ => rfl)).view.emb y := by
    subst hoff
    funext a
    refine Fin.ext ?_
    match a with
    | ⟨0, _⟩ =>
      show (i 0).val % 2048 = 0 + 1 * (y 0).val
      rw [hy0]; omega
    | ⟨1, _⟩ =>
      show 512 * p.val + (i 1).val = 512 * p.val + 1 * (y 1).val
      rw [hy1]; omega
  calc (oS s).view.write (Elt F) fd
          ((xM.slice (Rect.unit (s := S2048x2048) off S2048x512.size inb) (fun _ => rfl)).view.read (Elt F) (xin m s))
          Finset.univ i
      = (oS s).view.write (Elt F) fd
          ((xM.slice (Rect.unit (s := S2048x2048) off S2048x512.size inb) (fun _ => rfl)).view.read (Elt F) (xin m s))
          Finset.univ ((oS s).view.emb y) := by rw [hy]
    _ = outAt m p i := by
      rw [View.write_emb_of_mem _ _ (Finset.mem_univ y), View.read_apply, outAt_eq m p s i _ hrow hsrc]
      rfl

theorem land_remote (j : Fin 3) (s : Dev nD) (fd : Buf (Elt F) ((oS s).view.loc ((fwd j s : Dev nD) : Thread nD τ))) :
    ∀ i ∈ (oS s).view.set,
      (oS s).view.write (Elt F) fd ((xS j s).view.read (Elt F) (xin m s)) Finset.univ i = outAt m (fwd j s) i :=
  land m (fwd j s) s (k0_off2 s (BitVec.ofNat 32 (1 + j.val))) (k0_off2_inb s j) (Gen.k0_off2_eq s j) fd

theorem land_local (c : Dev nD) (fd : Buf (Elt F) ((oS c).view.loc (c : Thread nD τ))) :
    ∀ i ∈ (oS c).view.set,
      (oS c).view.write (Elt F) fd ((xL c).view.read (Elt F) (xin m c)) Finset.univ i = outAt m c i :=
  land m c c (k0_off3 c) (k0_off3_inb c) (Gen.k0_off3_eq c) fd

/-- the second payload obligation of the send rule (Rounds.wp_send_pointsTo's hpay₂) at transfer j of device s -/
theorem recv_landed (j : Fin 3) (s : Dev nD) (fd : Buf (Elt F) ((oS s).view.loc ((fwd j s : Dev nD) : Thread nD τ))) :
    (((oS s).view.loc ((fwd j s : Dev nD) : Thread nD τ) ↦[(oS s).view.set]{fullShare}
        ((oS s).view.write (Elt F) fd ((xS j s).view.read (Elt F) (xin m s)) Finset.univ)) : sProp 𝕄)
      ⊢ recvPay m j (fwd j s) := by
  have e : recvPay m j (fwd j s)
      = (((oS s).view.loc ((fwd j s : Dev nD) : Thread nD τ) ↦[(oS s).view.set]{fullShare} outAt m (fwd j s)) : sProp 𝕄) := by
    unfold recvPay slotPts; rw [bwd_fwd]
  rw [e]
  exact Entails.of_eq (Region.is_congr (land_remote m j s fd))

/-- the payload obligation of the local copy (Rounds.wp_copy_pointsTo's hpay) on device c -/
theorem loc_landed (c : Dev nD) (fd : Buf (Elt F) ((oS c).view.loc (c : Thread nD τ))) :
    (iprop(((oS c).view.loc (c : Thread nD τ) ↦[(oS c).view.set]{fullShare}
          ((oS c).view.write (Elt F) fd ((xL c).view.read (Elt F) (xin m c)) Finset.univ))
        ∗ ((xL c).view.loc (c : Thread nD τ) ↦[(xL c).view.set]{fullShare} xin m c)) : sProp 𝕄)
      ⊢ locPay m c := by
  unfold locPay slotPts xLPts
  exact sep_mono (Entails.of_eq (Region.is_congr (land_local m c fd))) .rfl

end Cert.KernelIdeal.A2A

end

/-- info: 'Cert.KernelIdeal.A2A.out_split' depends on axioms: [propext, Classical.choice, Quot.sound] -/
#guard_msgs in #print axioms Cert.KernelIdeal.A2A.out_split
/-- info: 'Cert.KernelIdeal.A2A.out_join' depends on axioms: [propext, Classical.choice, Quot.sound] -/
#guard_msgs in #print axioms Cert.KernelIdeal.A2A.out_join
/-- info: 'Cert.KernelIdeal.A2A.x_split' depends on axioms: [propext, Classical.choice, Quot.sound] -/
#guard_msgs in #print axioms Cert.KernelIdeal.A2A.x_split
/-- info: 'Cert.KernelIdeal.A2A.x_join' depends on axioms: [propext, Classical.choice, Quot.sound] -/
#guard_msgs in #print axioms Cert.KernelIdeal.A2A.x_join
/-- info: 'Cert.KernelIdeal.A2A.land_remote' depends on axioms: [propext, Classical.choice, Quot.sound] -/
#guard_msgs in #print axioms Cert.KernelIdeal.A2A.land_remote
/-- info: 'Cert.KernelIdeal.A2A.land_local' depends on axioms: [propext, Classical.choice, Quot.sound] -/
#guard_msgs in #print axioms Cert.KernelIdeal.A2A.land_local
/-- info: 'Cert.KernelIdeal.A2A.recv_landed' depends on axioms: [propext, Classical.choice, Quot.sound] -/
#guard_msgs in #print axioms Cert.KernelIdeal.A2A.recv_landed
/-- info: 'Cert.KernelIdeal.A2A.loc_landed' depends on axioms: [propext, Classical.choice, Quot.sound] -/
#guard_msgs in #print axioms Cert.KernelIdeal.A2A.loc_landed
-- ==== Proof.KernelIdealLaunch.lean ====
/-
  The all-to-all on four devices: the launch. From "each device's body is proved" to the run of the program on the
  four devices: the levels at which a device may wait, the ghost state minted at launch and how it is dealt to the
  devices, the launch credit, and the theorem's side conditions.
-/
import proofs.«900003_g7700000000000004_dist_a2a_v7x_i4_i_m2048_n512_f32_1_alg».proof.Proof.KernelIdealSched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A receive cell sits at level 2, -/
theorem lv_recv (j : Fin 3) (p : Dev nD) : lv (recvCell j p) () = 2 := by
  show (if 3 ≤ (recvS j).val ∧ (recvS j).val < 6 then 2 else 0) = 2
  exact if_pos ⟨by show 3 ≤ 3 + j.val; omega, by show 3 + j.val < 6; omega⟩
/-- a barrier cell at level 1. -/
theorem lv_bar (p : Dev nD) : lv (barCell p) () = 1 := rfl

/-- The three transfers' credits are owed to receive cells only. -/
theorem O₃_pos {c : Dev nD} {g : GSem nD τ sig} {u : Unit} (h : 0 < O₃ c g u) : ∃ j : Fin 3, g = recvCell j (fwd j c) := by
  unfold O₃ at h
  rcases Pipeline.add_pos_cases h with h | h
  · rcases Pipeline.add_pos_cases h with h | h
    · exact ⟨2, (Pipeline.tallyAt_pos h).1⟩
    · exact ⟨1, (Pipeline.tallyAt_pos h).1⟩
  · exact ⟨0, (Pipeline.tallyAt_pos h).1⟩

omit [FloatOps F] in
/-- At the barrier wait a device owes only the three transfers' credits: receive cells (level 2) above the barrier cell (level 1). -/
theorem mayWait_bar (c : Dev nD) : (levAts L lv : sProp 𝕄) ⊢ MayWait (c : Thread nD τ) (.reg barS) () (O₃ c) :=
  Pipeline.mayWait_of_levAts (by rw [L_tc]; exact Finset.mem_singleton_self _) fun g u hg => by
    obtain ⟨j, rfl⟩ := O₃_pos hg
    refine ⟨by rw [L_tc]; exact Finset.mem_singleton_self _, ?_⟩
    rw [lv_recv]; show (1 : ℕ) < 2; decide

/-! ## The launch: the cells and the duty tokens minted -/

theorem ownSemFacts : Pipeline.OwnSemFacts cfg0.spec osem := by decide

/-- A cell's semaphore as a number: the barrier 7, DMA semaphore q its own index. -/
abbrev semCode (s : SemLoc sig) : ℕ := match s with | .reg _ => 7 | .dma q => q.val

theorem csem_injective : Function.Injective csem := by
  intro k k' h
  have h' : semCode (csem k) = semCode (csem k') := congrArg semCode h
  clear h; revert k k'; decide

theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-- The cells of the four devices. -/
def a2aCells : Finset (GSem nD τ sig) := Finset.univ.map ⟨kcell, kcell_injective⟩

/-- The ten duty tokens of a device's own cells, by index: the cell (three for the barrier, one for every other) -/
abbrev tk : Fin 10 → Fin 8 := ![0, 0, 0, 1, 2, 3, 4, 5, 6, 7]
/-- and the duty (the barrier's three, 0 for every other). -/
abbrev td : Fin 10 → Fin 3 := ![0, 1, 2, 0, 0, 0, 0, 0, 0, 0]
abbrev tokOf (ci : Dev nD × Fin 10) : GSem nD τ sig × ℕ × Fin 3 := (kcell (ci.1, tk ci.2), 0, td ci.2)

theorem tk_td_injective : ∀ i i' : Fin 10, tk i = tk i' → td i = td i' → i = i' := by decide

theorem tokOf_injective : Function.Injective (tokOf : Dev nD × Fin 10 → GSem nD τ sig × ℕ × Fin 3) := by
  rintro ⟨c, i⟩ ⟨c', i'⟩ h
  have h1 : (c, tk i) = (c', tk i') := kcell_injective (congrArg (fun x : GSem nD τ sig × ℕ × Fin 3 => x.1) h)
  have h2 : td i = td i' := congrArg (fun x : GSem nD τ sig × ℕ × Fin 3 => x.2.2) h
  have hc : c = c' := congrArg Prod.fst h1
  have hi : i = i' := tk_td_injective i i' (congrArg Prod.snd h1) h2
  subst hc; subst hi; rfl

def a2aToks : Finset (GSem nD τ sig × ℕ × Fin 3) := Finset.univ.map ⟨tokOf, tokOf_injective⟩

/-- The launch element: the pipeline library's (no staging cell here) beside the protocol's. -/
def u₀ : UU :=
  (initOf (Pipeline.cells cfgs cellOf_inj) (Pipeline.launchToks cfgs cellOf_inj), initOf a2aCells a2aToks)

/-- The duty tokens of device c's own cells, as minted. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0
    ∗ dutyTok ER (locCell c) 0 0)

/-- What the launch element deals device c: its eight cells' round states, positions and reached-marks, and its tokens. -/
def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

omit [FloatOps F] in
/-- The tokens minted for device c are its own cells' ten. -/
theorem toks_of_minted (c : Dev nD) :
    (bigSep Finset.univ fun i : Fin 10 => (dutyTok ER (tokOf (c, i)).1 (tokOf (c, i)).2.1 (tokOf (c, i)).2.2 : sProp 𝕄)) = toks c := by
  rw [bigSep_fin10]; rfl

omit [FloatOps F] in
/-- The protocol's launch element funds every device's G. -/
theorem fund_a2a : BI.own (ER (initOf a2aCells a2aToks)) ⊢ (|==> bigSep Finset.univ (G m) : sProp 𝕄) := by
  have hX (Φ : GSem nD τ sig → sProp 𝕄) :
      bigSep a2aCells Φ = bigSep Finset.univ fun c : Dev nD => bigSep Finset.univ fun k : Fin 8 => Φ (kcell (c, k)) := by
    rw [show a2aCells = Finset.univ.map ⟨kcell, kcell_injective⟩ from rfl, bigSep_map, bigSep_univ_prod]; rfl
  have hT : bigSep a2aToks (fun x => (dutyTok ER x.1 x.2.1 x.2.2 : sProp 𝕄)) = bigSep Finset.univ fun c : Dev nD => toks c := by
    rw [show a2aToks = Finset.univ.map ⟨tokOf, tokOf_injective⟩ from rfl, bigSep_map, bigSep_univ_prod]
    exact bigSep_congr fun c _ => toks_of_minted c
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  rw [show (G m : Dev nD → sProp 𝕄) = fun c => iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c) from rfl,
    bigSep_sep', bigSep_sep',
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep']
  isplitl [Hst']; · iexact Hst'
  isplitl [Hat' Hr']
  · isplitl [Hat'] <;> iassumption
  iexact Htok'

/-! ## The semaphores at zero, and the cells' invariants allocated -/

omit [FloatOps F] in
/-- The seven DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0 ∗ semVal (locCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together: the counters of the device's eight cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨⟨S0, S1, S2, R0, R1, R2, HL⟩, HB⟩
  isplitl [HB]; · iexact HB
  isplitl [S0]; · iexact S0
  isplitl [S1]; · iexact S1
  isplitl [S2]; · iexact S2
  isplitl [R0]; · iexact R0
  isplitl [R1]; · iexact R1
  isplitl [R2]; · iexact R2
  iexact HL

omit [FloatOps F] in
/-- One device's cells: each counter at zero with its round state at zero makes the cell's invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) := by
  rw [show G m c = iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c) from rfl]
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt; the global step -/

/-- j steps forward, as a re-indexing of the devices (its inverse: j steps back). -/
def fwdE (j : Fin 3) : Dev nD ≃ Dev nD := ⟨fwd j, bwd j, bwd_fwd j, fwd_bwd j⟩

omit [FloatOps F] in
/-- The tokens dealt: duty d of device p's barrier cell goes to the device d steps back, which pays it; the token of
    p's receive cell j to the device j steps back; the send and local-copy tokens stay. Seen from the payer c: it gets
    duty j of the barrier cell and the token of receive cell j of the device j steps forward. -/
theorem toks_around : (bigSep Finset.univ fun c : Dev nD => (toks c : sProp 𝕄)) ⊢ bigSep Finset.univ fun c : Dev nD => payToks c := by
  rw [show (fun c : Dev nD => (toks c : sProp 𝕄)) = fun c => iprop(dutyTok ER (barCell c) 0 0 ∗ dutyTok ER (barCell c) 0 1 ∗ dutyTok ER (barCell c) 0 2
      ∗ dutyTok ER (sendCell 0 c) 0 0 ∗ dutyTok ER (sendCell 1 c) 0 0 ∗ dutyTok ER (sendCell 2 c) 0 0
      ∗ dutyTok ER (recvCell 0 c) 0 0 ∗ dutyTok ER (recvCell 1 c) 0 0 ∗ dutyTok ER (recvCell 2 c) 0 0
      ∗ dutyTok ER (locCell c) 0 0) from rfl,
    show (fun c : Dev nD => (payToks c : sProp 𝕄)) = fun c => iprop(
        (dutyTok ER (barCell (fwd 0 c)) 0 0 ∗ dutyTok ER (recvCell 0 (fwd 0 c)) 0 0 ∗ dutyTok ER (sendCell 0 c) 0 0)
      ∗ (dutyTok ER (barCell (fwd 1 c)) 0 1 ∗ dutyTok ER (recvCell 1 (fwd 1 c)) 0 0 ∗ dutyTok ER (sendCell 1 c) 0 0)
      ∗ (dutyTok ER (barCell (fwd 2 c)) 0 2 ∗ dutyTok ER (recvCell 2 (fwd 2 c)) 0 0 ∗ dutyTok ER (sendCell 2 c) 0 0)
      ∗ dutyTok ER (locCell c) 0 0) from rfl]
  repeat rw [bigSep_sep']
  rw [bigSep_univ_equiv (fwdE 0) (fun c : Dev nD => (dutyTok ER (barCell c) 0 0 : sProp 𝕄)),
    bigSep_univ_equiv (fwdE 1) (fun c : Dev nD => (dutyTok ER (barCell c) 0 1 : sProp 𝕄)),
    bigSep_univ_equiv (fwdE 2) (fun c : Dev nD => (dutyTok ER (barCell c) 0 2 : sProp 𝕄)),
    bigSep_univ_equiv (fwdE 0) (fun c : Dev nD => (dutyTok ER (recvCell 0 c) 0 0 : sProp 𝕄)),
    bigSep_univ_equiv (fwdE 1) (fun c : Dev nD => (dutyTok ER (recvCell 1 c) 0 0 : sProp 𝕄)),
    bigSep_univ_equiv (fwdE 2) (fun c : Dev nD => (dutyTok ER (recvCell 2 c) 0 0 : sProp 𝕄))]
  iintro ⟨B0, B1, B2, S0, S1, S2, R0, R1, R2, HL⟩
  isplitl [B0 R0 S0]
  · isplitl [B0]; · iexact B0
    isplitl [R0]; · iexact R0
    iexact S0
  isplitl [B1 R1 S1]
  · isplitl [B1]; · iexact B1
    isplitl [R1]; · iexact R1
    iexact S1
  isplitl [B2 R2 S2]
  · isplitl [B2]; · iexact B2
    isplitl [R2]; · iexact R2
    iexact S2
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 8 → ℕ) (c : Dev nD) : iprop(records m K ∗ linear c) ⊢ G' m c := by
  show iprop(records m K ∗ linear c) ⊢ iprop(∃ K, records m K ∗ linear c)
  iintro H
  iexists K
  iexact H

omit [FloatOps F] in
/-- All devices' allocated cells, positions, reached-marks and minted tokens, regrouped: the invariants and reached-marks
    of ALL cells to every device (they are persistent), each device's positions and the tokens of the duties it pays to it. -/
theorem regroup :
    (bigSep Finset.univ fun c : Dev nD => iprop((bigSep Finset.univ fun k => iprop(∃ κ : ℕ, cellInv ER (a2aRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · iapply (show iprop((bigSep Finset.univ fun ck : Dev nD × Fin 8 => cellInv ER (a2aRd m) (K ck) (kcell ck))
        ∗ bigSep Finset.univ fun ck : Dev nD × Fin 8 => reached ER (kcell ck) 0) ⊢ records m K from Entails.of_eq rfl)
    isplitl; · iexact HI
    iexact HR
  · iapply ((Entails.of_eq (bigSep_sep' Finset.univ (fun c : Dev nD => bigSep Finset.univ fun k : Fin 8 => (atPos ER (kcell (c, k)) 0 ∅ 0 : sProp 𝕄)) payToks).symm).trans
      (bigSep_mono fun c _ => show _ ⊢ linear c from Entails.of_eq rfl))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Summed over the devices, device c's barrier cell is owed one unit by each of the three others (the device j steps
    back owes it with its signal j), and its receive cell j one block's credit by the device j steps back. -/
theorem creds (c : Dev nD) :
    (Pipeline.launchCred O₀ c : sProp 𝕄) ⊢ iprop(cred (tallyAt (barCell c) () 3)
      ∗ (cred (tallyAt (recvCell 0 c) () N) ∗ cred (tallyAt (recvCell 1 c) () N) ∗ cred (tallyAt (recvCell 2 c) () N))) := by
  have e : (Pipeline.launchCred O₀ c : sProp 𝕄)
      = iprop(((((Pipeline.launchCred (Rt 2) c ∗ Pipeline.launchCred (Rt 1) c) ∗ Pipeline.launchCred (Rt 0) c)
        ∗ Pipeline.launchCred (Bt 2) c) ∗ Pipeline.launchCred (Bt 1) c) ∗ Pipeline.launchCred (Bt 0) c) := by
    show Pipeline.launchCred (fun d => Rt 2 d + Rt 1 d + Rt 0 d + Bt 2 d + Bt 1 d + Bt 0 d) c = _
    rw [Pipeline.launchCred_add, Pipeline.launchCred_add, Pipeline.launchCred_add, Pipeline.launchCred_add, Pipeline.launchCred_add]
  have hB (j : Fin 3) : (Pipeline.launchCred (Bt j) c : sProp 𝕄) ⊢ cred (tallyAt (barCell c) () 1) :=
    Pipeline.launchCred_tallyAt (.reg barS) (fwd j) (bwd j) (fwd_bwd j) (bwd_fwd j) () 1 c
  have hR (j : Fin 3) : (Pipeline.launchCred (Rt j) c : sProp 𝕄) ⊢ cred (tallyAt (recvCell j c) () N) :=
    Pipeline.launchCred_tallyAt (.dma (recvS j)) (fwd j) (bwd j) (fwd_bwd j) (bwd_fwd j) () N c
  have h3 : (tallyAt (barCell c) () 3 : CellTallies nD τ sig Unit)
      = tallyAt (barCell c) () 1 + tallyAt (barCell c) () 1 + tallyAt (barCell c) () 1 := by
    rw [tallyAt_add, tallyAt_add]
  rw [e, h3]
  iintro ⟨⟨⟨⟨⟨R2, R1⟩, R0⟩, B2⟩, B1⟩, B0⟩
  isplitl [B0 B1 B2]
  · iapply (cred_add _ _).2
    isplitl [B0 B1]
    · iapply (cred_add _ _).2
      isplitl [B0]
      · iapply (hB 0); iexact B0
      · iapply (hB 1); iexact B1
    · iapply (hB 2); iexact B2
  isplitl [R0]; · iapply (hR 0); iexact R0
  isplitl [R1]; · iapply (hR 1); iexact R1
  iapply (hR 2); iexact R2

/-! ## The theorem's side conditions -/

omit [FloatOps F] in
theorem share_eq (c : Dev nD) (w : Fin cfg0.W) : (dats m 0 c).share w = fullShare := w.elim0

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-- What a device holds once launched, besides its scoped storage: the start state and its two arrays as launched. -/
def X (c : Dev nD) : sProp 𝕄 :=
  iprop(start m c ∗ (((c : Thread nD τ).loc main_arg0) ↦{fullShare} xin m c)
    ∗ (((c : Thread nD τ).loc main_v1) ↦{fullShare} m ((c : Thread nD τ).loc main_v1)))
/-- What it gives back: the input block unchanged, the result array at the exchanged contents. -/
def Y (c : Dev nD) : sProp 𝕄 :=
  iprop((((c : Thread nD τ).loc main_arg0) ↦{fullShare} xin m c) ∗ (((c : Thread nD τ).loc main_v1) ↦{fullShare} outAt m c))

omit [FloatOps F] in
/-- The two arrays are not staged: they arrive as the unscoped rest and are kept. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  ihave HG' := (show G' m c ⊢ iprop(∃ K, ghost m K c) from Entails.of_eq rfl) $$ HG
  imodintro
  iapply (show iprop((((∃ K, ghost m K c) ∗ cred (tallyAt (barCell c) () 3)
      ∗ (cred (tallyAt (recvCell 0 c) () N) ∗ cred (tallyAt (recvCell 1 c) () N) ∗ cred (tallyAt (recvCell 2 c) () N))
      ∗ levAts L lv) ∗ (((c : Thread nD τ).loc main_arg0) ↦{fullShare} m ((c : Thread nD τ).loc main_arg0))
      ∗ (((c : Thread nD τ).loc main_v1) ↦{fullShare} m ((c : Thread nD τ).loc main_v1))) ∗ emp) ⊢ iprop(X m c ∗ emp) from Entails.of_eq rfl)
  isplitl
  · isplitl [HG' H3 HN Hlev]
    · isplitl [HG']; · iexact HG'
      isplitl [H3]; · iexact H3
      isplitl [HN]; · iexact HN
      iexact Hlev
    isplitl [Hx]; · iexact Hx
    iexact Ho
  · iempintro

omit [FloatOps F] in
theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  iintro ⟨HX, -, -⟩
  ihave HX' := (show X m c ⊢ iprop(start m c ∗ (((c : Thread nD τ).loc main_arg0) ↦{fullShare} xin m c)
      ∗ (((c : Thread nD τ).loc main_v1) ↦{fullShare} m ((c : Thread nD τ).loc main_v1))) from Entails.of_eq rfl) $$ HX
  icases HX' with ⟨Hs, Hx, Ho⟩
  iapply (show iprop(start m c ∗ (((c : Thread nD τ).loc main_arg0) ↦{fullShare} xin m c)
      ∗ ∃ f, (((c : Thread nD τ).loc main_v1) ↦{fullShare} f)) ⊢ Φ₀ m c from Entails.of_eq rfl)
  isplitl [Hs]; · iexact Hs
  isplitl [Hx]; · iexact Hx
  iexists (m ((c : Thread nD τ).loc main_v1)); iexact Ho

omit [FloatOps F] in
theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  iintro H
  ihave H' := (show Φ₁ m c ⊢ iprop((((c : Thread nD τ).loc main_arg0) ↦{fullShare} xin m c)
      ∗ (((c : Thread nD τ).loc main_v1) ↦{fullShare} outAt m c) ∗ Pipeline.ownSems0 osem c) from Entails.of_eq rfl) $$ H
  icases H' with ⟨Hx, Ho, Hs⟩
  isplitl [Hx Ho]
  · iapply (show iprop((((c : Thread nD τ).loc main_arg0) ↦{fullShare} xin m c)
      ∗ (((c : Thread nD τ).loc main_v1) ↦{fullShare} outAt m c)) ⊢ Y m c from Entails.of_eq rfl)
    isplitl [Hx] <;> iassumption
  isplitl [Hs]; · iexact Hs
  iempintro

/-- What is read off a device's final memory. -/
def QY (c : Dev nD) (mem : MemSt nD τ sig (Elt F)) : Prop :=
  mem.mem ((c : Thread nD τ).loc main_v1) = outAt m c ∧ mem.mem ((c : Thread nD τ).loc main_arg0) = m ((c : Thread nD τ).loc main_arg0)

omit [FloatOps F] in
/-- The two whole-array points-to, read against the state interpretation. -/
theorem read_final (c : Dev nD) (s' : Phys nD τ sig (Elt F)) :
    iprop(Y m c ∗ emp ∗ SI s') ⊢ |={Set.univ}=> iprop(⌜QY m c s'.mem⌝ ∗ (SI s' : sProp 𝕄)) := by
  iintro ⟨HY, -, HSI⟩
  ihave HY' := (show Y m c ⊢ iprop((((c : Thread nD τ).loc main_arg0) ↦{fullShare} xin m c)
      ∗ (((c : Thread nD τ).loc main_v1) ↦{fullShare} outAt m c)) from Entails.of_eq rfl) $$ HY
  icases HY' with ⟨Hx, Ho⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- the run, from the body obligation -/
theorem run_main_of (ρ : Dev nD → PrngReg) (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      rw [show (u₀ : UU) = (initOf (Pipeline.cells cfgs cellOf_inj) (Pipeline.launchToks cfgs cellOf_inj), initOf a2aCells a2aToks) from rfl]
      iintro Hu
      ihave H := (ownU_pair _ _) $$ Hu
      icases H with ⟨HP, HX⟩
      imod (fund_a2a m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_final m)
    (hQ := fun _ h c => (h c).2.2)

/-- info: 'Cert.KernelIdeal.A2A.run_main_of' depends on axioms: [propext, Classical.choice, Quot.sound] -/
#guard_msgs in #print axioms run_main_of

end Cert.KernelIdeal.A2A

end
-- ==== Proof.KernelIdealBody.lean ====
/-
  One device's part of the exchange, step by step.

  Device c starts with its input block, its result array at any contents, and its eight cells at round 0. It cuts the result
  array into its four row blocks and the input block into its four column blocks. With signal j it hands row block fwd j c of its
  own result to the device fwd j c; the barrier wait for three units brings it row block c of the three other devices' results.
  Transfer j then writes column block fwd j c of its input into row block c of device fwd j c's result, which it holds; the local
  copy writes its own column block c into its own row block c. The three send waits bring the column blocks back, the local
  wait its own row block, written, and its own column block; receive wait j brings row block bwd j c of its result, written by the
  device bwd j c. Every landed row block holds, element by element, the exchanged contents outAt m c, so the four row blocks
  join to the result array at outAt m c and the four column blocks to the input block unchanged. The seven cells of its own
  scratch semaphores are closed at the end: their counters are zero again.
-/
import proofs.«900003_g7700000000000004_dist_a2a_v7x_i4_i_m2048_n512_f32_1_alg».proof.Proof.KernelIdealSched
import proofs.«900003_g7700000000000004_dist_a2a_v7x_i4_i_m2048_n512_f32_1_alg».proof.Proof.KernelIdealRegions
import proofs.«900003_g7700000000000004_dist_a2a_v7x_i4_i_m2048_n512_f32_1_alg».proof.Proof.KernelIdealLaunch
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × Fin 8 → ℕ)

omit [FloatOps F] in
theorem inv_at (ck : Dev nD × Fin 8) :
    (bigSep Finset.univ fun ck : Dev nD × Fin 8 => (cellInv ER (a2aRd m) (K ck) (kcell ck) : sProp 𝕄)) ⊢ cellInv ER (a2aRd m) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)
omit [FloatOps F] in
theorem bigSep_fin0 (Φ : Fin 0 → sProp 𝕄) : bigSep Finset.univ Φ = iprop(emp) := rfl

/-- Signal j: device c pays duty j of the barrier cell of the device n = fwd j c (substituted, not rewritten), handing over
    row block n of its own result. -/
theorem step_signal (c n : Dev nD) (j : Fin 3) (hn : n = fwd j c) {α : Type} {Q : α → sProp 𝕄}
    {k : PUnit → Prog (TpuEff nD τ sig (Elt F) Λ₀ .tc) α}
    (f : Buf (Elt F) ((oS (fwd j c)).view.loc (c : Thread nD τ))) (O : CellTallies nD τ sig Unit) (W : Waits sig Unit) :
    iprop(cellInv ER (a2aRd m) (K (fwd j c, 0)) (barCell (fwd j c)) ∗ owes (c : Thread nD τ) (O + Bt j c) W
        ∗ dutyTok ER (barCell (fwd j c)) 0 j ∗ slotPts c (fwd j c) f ∗ reached ER (barCell (fwd j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨HI, HO, Htok, Hslot, Hr⟩
  iapply (Rounds.wp_signal 𝒱₀ ER (a2aRd m) (c : Thread nD τ) none (dst := (fwd j c : Thread nD τ)) (κ := K (fwd j c, 0))
      (d := j) (by rw [duties_bar]; exact Finset.mem_univ _) (amount_bar m (fwd j c) j) () O rfl)
  isplitl [HI]; · iexact HI
  isplitl [HO]; · iexact HO
  isplitl [Htok]; · iexact Htok
  isplitl [Hslot]
  · rw [payload_bar]; unfold barPay; rw [bwd_fwd]; iexists f; iexact Hslot
  iexact Hr

/-- The barrier wait: three units, the whole of the cell's one round; the three other devices' row blocks c come with it. -/
theorem step_wait_bar (c : Dev nD) {α : Type} {Q : α → sProp 𝕄}
    {k : PUnit → Prog (TpuEff nD τ sig (Elt F) Λ₀ .tc) α} (W : Waits sig Unit) :
    iprop(cellInv ER (a2aRd m) (K (c, 0)) (barCell c) ∗ cred (tallyAt (barCell c) () 3) ∗ owes (c : Thread nD τ) (O₃ c) W
        ∗ levAts L lv ∗ atPos ER (barCell c) 0 ∅ 0)
      ⊢ iprop(((owes (c : Thread nD τ) (O₃ c) (insert (SemLoc.reg barS, ()) W) ∗ atPos ER (barCell c) 1 ∅ 0
              ∗ (barPay c 0 ∗ barPay c 1 ∗ barPay c 2))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨HI, Hc, HO, Hlev, Hat⟩ Hk
  iapply (Rounds.wp_wait_rest_token 𝒱₀ ER (a2aRd m) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- Transfer j: device c sends its column block (the one of n = fwd j c) into row block c of n's result, which it holds. -/
theorem step_send (c n : Dev nD) (j : Fin 3) (hn : n = fwd j c) (sS sR : DmaSem sig) (hS : sS = sendS j) (hR : sR = recvS j)
    {hsc : ((oS c) : Memref sig (Dev.tc n : Thread nD τ).2.kind .hbm S2048x512 .f32).view.ref.isScScratch = false}
    {hsrc : (xS j c).view.WordExact} {hdst : (oS c).view.WordExact}
    {hsem : DmaTarget.Typed .hbm (.dma sR) (.remote (Dev.tc n : Thread nD τ) (oS c) (.dma sS) hsc)}
    {α : Type} {Q : α → sProp 𝕄} {k : PUnit → Prog (TpuEff nD τ sig (Elt F) Λ₀ .tc) α}
    (fn : Buf (Elt F) ((oS c).view.loc (fwd j c : Thread nD τ))) (O : CellTallies nD τ sig Unit) (W : Waits sig Unit) :
    iprop(cellInv ER (a2aRd m) (K (c, kS j)) (sendCell j c) ∗ cellInv ER (a2aRd m) (K (fwd j c, kR j)) (recvCell j (fwd j c))
        ∗ xSPts j c (xin m c) ∗ slotPts (fwd j c) c fn
        ∗ owes (c : Thread nD τ) (O + Rt j c) W
        ∗ dutyTok ER (sendCell j c) 0 0 ∗ reached ER (sendCell j c) 0
        ∗ dutyTok ER (recvCell j (fwd j c)) 0 0 ∗ reached ER (recvCell j (fwd j c)) 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS j c) (.remote (Dev.tc n : Thread nD τ) (oS c) (.dma sS) hsc) (.dma sR) hsrc hdst hsem) k) Q) := by
  subst hn hS hR
  unfold xSPts slotPts
  exact Rounds.wp_send_pointsTo 𝒱₀ ER (a2aRd m) (c : Thread nD τ) none (src := xS j c) (dst := oS c) (c' := (fwd j c : Thread nD τ))
    (q := fullShare) (fs := xin m c) (κ₁ := K (c, kS j)) (κ₂ := K (fwd j c, kR j))
    (r₁ := 0) (r₂ := 0) (d₁ := 0) (d₂ := 0) (fd := fn)
    (by rw [duties_send]; exact Finset.mem_singleton_self _) (by rw [duties_recv]; exact Finset.mem_singleton_self _)
    () () N rfl (amount_send m c j 0) (amount_recv m (fwd j c) j 0) O rfl (W := W)
    (by rw [payload_send]; exact BI.Entails.refl _)
    (by rw [payload_recv]; exact recv_landed m j c fn)

/-- The local copy: column block c of the input into row block c of the result, through the local-copy cell. -/
theorem step_local (c : Dev nD) (sL : DmaSem sig) (hL : sL = locS)
    {hsrc : (xL c).view.WordExact} {hdst : (oS c).view.WordExact} {hsem : DmaTarget.Typed (nD := nD) .hbm (.dma sL) (DmaTarget.here (p := (c : Thread nD τ).2) (oS c))}
    {α : Type} {Q : α → sProp 𝕄} {k : PUnit → Prog (TpuEff nD τ sig (Elt F) Λ₀ .tc) α}
    (fd : Buf (Elt F) ((oS c).view.loc (c : Thread nD τ))) :
    iprop(cellInv ER (a2aRd m) (K (c, 7)) (locCell c) ∗ xLPts c (xin m c) ∗ slotPts c c fd
        ∗ dutyTok ER (locCell c) 0 0 ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xL c) (.here (oS c)) (.dma sL) hsrc hdst hsem) k) Q) := by
  subst hL
  unfold xLPts slotPts
  exact Rounds.wp_copy_pointsTo 𝒱₀ ER (a2aRd m) (c : Thread nD τ) none (src := xL c) (dst := oS c) (sem := .dma locS)
    (q := fullShare) (fs := xin m c) (fd := fd) (r := 0) (d := 0) (κ := K (c, 7))
    (by rw [duties_loc]; exact Finset.mem_singleton_self _) () N rfl (amount_loc m c 0)
    (by rw [payload_loc]; exact loc_landed m c fd)

/-- A DMA wait for the whole of a one-duty round of one of the device's own cells g, owing nothing: the duty's payload P. -/
theorem step_wait_dma (c : Dev nD) (q : DmaSem sig) (κ : ℕ) (P : sProp 𝕄)
    (hexp : (a2aRd (F := F) m).expect ((c : Thread nD τ), .dma q) 0 = N)
    (hrest : bigSep ((a2aRd (F := F) m).duties ((c : Thread nD τ), .dma q) 0 \ ∅) (fun d => (a2aRd (F := F) m).payload ((c : Thread nD τ), .dma q) 0 d) = P)
    {sp' : Space} {s' : Shape} {e' : EltTy}
    {src : Memref sig (c : Thread nD τ).2.kind sp' s' e'} {dst : Memref sig .tc .hbm S2048x512 .f32} {hsrc : src.view.WordExact} {hdst : dst.view.WordExact}
    {α : Type} {Q : α → sProp 𝕄} {k : PUnit → Prog (TpuEff nD τ sig (Elt F) Λ₀ .tc) α} (W : Waits sig Unit) :
    iprop(cellInv ER (a2aRd m) κ ((c : Thread nD τ), .dma q) ∗ cred (tallyAt ((c : Thread nD τ), .dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hcr : dst.view.dmaCredit = N := rfl
  iintro ⟨HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, hexp, hcr])) $$ [HI Hc HO Hat]
  · isplitl [HI]; · iexact HI
    isplitl [Hc]; · rw [hcr]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hrest); iexact Hpay

omit [FloatOps F] in
theorem bwd2_eq (c : Dev nD) : bwd 2 c = fwd 0 c := by revert c; decide
omit [FloatOps F] in
theorem bwd1_eq (c : Dev nD) : bwd 1 c = fwd 1 c := by revert c; decide
omit [FloatOps F] in
theorem bwd0_eq (c : Dev nD) : bwd 0 c = fwd 2 c := by revert c; decide
omit [FloatOps F] in
/-- A row block held on device s is held on the same device under another name. -/
theorem slot_on (s s' p : Dev nD) (h : s = s') : (iprop(∃ f, slotPts (F := F) s p f) : sProp 𝕄) ⊢ iprop(∃ f, slotPts s' p f) := by
  subst h; exact BI.Entails.refl _

set_option maxHeartbeats 3000000 in
/-- The body on device c, from the invariant before the one point to the invariant after it. -/
theorem body_obligation (c : Dev nD) : BodyObligation (dats (F := F) m 0 c) (defs₀ (F := F)) 𝒱₀ () Set.univ := fun t => by
  have ht := fin_N0 t
  subst ht
  show iprop(Φ₀ m c ∗ (dats m 0 c).owesAt () t0_0.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _) cc0_scratch0 cc0_scratch1 cc0_scratch2)
        (fun _ => iprop(Φ₁ m c ∗ (dats m 0 c).owesAt () t0_0.succ ∗ emp))
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold Φ₀ start ghost records linear positions payToks payTok Dat.owesAt Pipeline.owesWithin
  rw [bigSep_fin8]
  rw [show (dats m 0 c).owed t0_0.castSucc = O₃ c + Bt 2 c + Bt 1 c + Bt 0 c from rfl]
  iintro ⟨⟨⟨⟨%K, ⟨#HI, #HR⟩, ⟨Hb, Hs0, Hs1, Hs2, Hr0, Hr1, Hr2, Hl⟩, ⟨HtB0, HtR0, HtS0⟩, ⟨HtB1, HtR1, HtS1⟩, ⟨HtB2, HtR2, HtS2⟩, HtL⟩,
    HcB, ⟨HcR0, HcR1, HcR2⟩, #Hlev⟩, Hx, ⟨%f0, Hout⟩⟩, ⟨%W, %hW, HO⟩, -⟩
  -- the two arrays by blocks
  ihave Hx4 := (x_split c (xin m c)) $$ Hx
  icases Hx4 with ⟨HxL, HxS0, HxS1, HxS2⟩
  ihave Ho4 := (out_split c f0) $$ Hout
  icases Ho4 with ⟨HoL, Ho0, Ho1, Ho2⟩
  -- signal 0
  iapply (step_signal m K c _ 0 (dev1_eq c) f0 (O₃ c + Bt 2 c + Bt 1 c) W) $$ [HO HtB0 Ho0]
  · isplitr; · iapply (inv_at m K (fwd 0 c, 0)); iexact HI
    isplitl [HO]; · iexact HO
    isplitl [HtB0]; · iexact HtB0
    isplitl [Ho0]; · iexact Ho0
    iapply (reached_at (F := F) (fwd 0 c, 0)); iexact HR
  iintro HO
  -- signal 1
  iapply (step_signal m K c _ 1 (dev2_eq c) f0 (O₃ c + Bt 2 c) W) $$ [HO HtB1 Ho1]
  · isplitr; · iapply (inv_at m K (fwd 1 c, 0)); iexact HI
    isplitl [HO]; · iexact HO
    isplitl [HtB1]; · iexact HtB1
    isplitl [Ho1]; · iexact Ho1
    iapply (reached_at (F := F) (fwd 1 c, 0)); iexact HR
  iintro HO
  -- signal 2
  iapply (step_signal m K c _ 2 (dev3_eq c) f0 (O₃ c) W) $$ [HO HtB2 Ho2]
  · isplitr; · iapply (inv_at m K (fwd 2 c, 0)); iexact HI
    isplitl [HO]; · iexact HO
    isplitl [HtB2]; · iexact HtB2
    isplitl [Ho2]; · iexact Ho2
    iapply (reached_at (F := F) (fwd 2 c, 0)); iexact HR
  iintro HO
  -- the barrier wait: the three other devices' row blocks c
  iapply (step_wait_bar m K c W) $$ [HcB HO Hb]
  · isplitr; · iapply (inv_at m K (c, 0)); iexact HI
    isplitl [HcB]; · iexact HcB
    isplitl [HO]; · iexact HO
    isplitr; · iexact Hlev
    iexact Hb
  iintro ⟨HO, Hb, Hp0, Hp1, Hp2⟩
  unfold barPay
  ihave Hq0 := (slot_on (F := F) _ _ c (bwd2_eq c)) $$ Hp2
  ihave Hq1 := (slot_on (F := F) _ _ c (bwd1_eq c)) $$ Hp1
  ihave Hq2 := (slot_on (F := F) _ _ c (bwd0_eq c)) $$ Hp0
  icases Hq0 with ⟨%h0, Hh0⟩
  icases Hq1 with ⟨%h1, Hh1⟩
  icases Hq2 with ⟨%h2, Hh2⟩
  rw [show O₃ c = Rt 2 c + Rt 1 c + Rt 0 c from rfl]
  -- transfer 0
  iapply (step_send m K c _ 0 (dev4_eq c) _ _ rfl rfl h0 (Rt 2 c + Rt 1 c) _) $$ [HxS0 Hh0 HO HtS0 HtR0]
  · isplitr; · iapply (inv_at m K (c, kS 0)); iexact HI
    isplitr; · iapply (inv_at m K (fwd 0 c, kR 0)); iexact HI
    isplitl [HxS0]; · iexact HxS0
    isplitl [Hh0]; · iexact Hh0
    isplitl [HO]; · iexact HO
    isplitl [HtS0]; · iexact HtS0
    isplitr; · iapply (reached_at (F := F) (c, kS 0)); iexact HR
    isplitl [HtR0]; · iexact HtR0
    iapply (reached_at (F := F) (fwd 0 c, kR 0)); iexact HR
  iintro ⟨HcS0, HO⟩
  -- transfer 1
  iapply (step_send m K c _ 1 (dev5_eq c) _ _ rfl rfl h1 (Rt 2 c) _) $$ [HxS1 Hh1 HO HtS1 HtR1]
  · isplitr; · iapply (inv_at m K (c, kS 1)); iexact HI
    isplitr; · iapply (inv_at m K (fwd 1 c, kR 1)); iexact HI
    isplitl [HxS1]; · iexact HxS1
    isplitl [Hh1]; · iexact Hh1
    isplitl [HO]; · iexact HO
    isplitl [HtS1]; · iexact HtS1
    isplitr; · iapply (reached_at (F := F) (c, kS 1)); iexact HR
    isplitl [HtR1]; · iexact HtR1
    iapply (reached_at (F := F) (fwd 1 c, kR 1)); iexact HR
  iintro ⟨HcS1, HO⟩
  -- transfer 2
  ihave HO := (Entails.of_eq (congrArg (fun O => owes (c : Thread nD τ) O _) (zero_add (Rt 2 c)).symm)) $$ HO
  iapply (step_send m K c _ 2 (dev6_eq c) _ _ rfl rfl h2 (0) _) $$ [HxS2 Hh2 HO HtS2 HtR2]
  · isplitr; · iapply (inv_at m K (c, kS 2)); iexact HI
    isplitr; · iapply (inv_at m K (fwd 2 c, kR 2)); iexact HI
    isplitl [HxS2]; · iexact HxS2
    isplitl [Hh2]; · iexact Hh2
    isplitl [HO]; · iexact HO
    isplitl [HtS2]; · iexact HtS2
    isplitr; · iapply (reached_at (F := F) (c, kS 2)); iexact HR
    isplitl [HtR2]; · iexact HtR2
    iapply (reached_at (F := F) (fwd 2 c, kR 2)); iexact HR
  iintro ⟨HcS2, HO⟩
  -- the local copy
  iapply (step_local m K c _ rfl f0) $$ [HxL HoL HtL]
  · isplitr; · iapply (inv_at m K (c, 7)); iexact HI
    isplitl [HxL]; · iexact HxL
    isplitl [HoL]; · iexact HoL
    isplitl [HtL]; · iexact HtL
    iapply (reached_at (F := F) (c, 7)); iexact HR
  iintro HcL
  -- send wait 0
  iapply (step_wait_dma m c (sendS 0) (K (c, kS 0)) (sendPay m 0 c) (expect_send m c 0) (rest_send m c 0) _) $$ [HcS0 HO Hs0]
  · isplitr; · iapply (inv_at m K (c, kS 0)); iexact HI
    isplitl [HcS0]; · iexact HcS0
    isplitl [HO]; · iexact HO
    iexact Hs0
  iintro ⟨HO, Hs0, HxS0⟩
  -- send wait 1
  iapply (step_wait_dma m c (sendS 1) (K (c, kS 1)) (sendPay m 1 c) (expect_send m c 1) (rest_send m c 1) _) $$ [HcS1 HO Hs1]
  · isplitr; · iapply (inv_at m K (c, kS 1)); iexact HI
    isplitl [HcS1]; · iexact HcS1
    isplitl [HO]; · iexact HO
    iexact Hs1
  iintro ⟨HO, Hs1, HxS1⟩
  -- send wait 2
  iapply (step_wait_dma m c (sendS 2) (K (c, kS 2)) (sendPay m 2 c) (expect_send m c 2) (rest_send m c 2) _) $$ [HcS2 HO Hs2]
  · isplitr; · iapply (inv_at m K (c, kS 2)); iexact HI
    isplitl [HcS2]; · iexact HcS2
    isplitl [HO]; · iexact HO
    iexact Hs2
  iintro ⟨HO, Hs2, HxS2⟩
  -- local wait
  iapply (step_wait_dma m c (locS) (K (c, 7)) (locPay m c) (expect_loc m c) (rest_loc m c) _) $$ [HcL HO Hl]
  · isplitr; · iapply (inv_at m K (c, 7)); iexact HI
    isplitl [HcL]; · iexact HcL
    isplitl [HO]; · iexact HO
    iexact Hl
  iintro ⟨HO, Hl, HpL⟩
  -- receive wait 0
  iapply (step_wait_dma m c (recvS 0) (K (c, kR 0)) (recvPay m 0 c) (expect_recv m c 0) (rest_recv m c 0) _) $$ [HcR0 HO Hr0]
  · isplitr; · iapply (inv_at m K (c, kR 0)); iexact HI
    isplitl [HcR0]; · iexact HcR0
    isplitl [HO]; · iexact HO
    iexact Hr0
  iintro ⟨HO, Hr0, HpR0⟩
  -- receive wait 1
  iapply (step_wait_dma m c (recvS 1) (K (c, kR 1)) (recvPay m 1 c) (expect_recv m c 1) (rest_recv m c 1) _) $$ [HcR1 HO Hr1]
  · isplitr; · iapply (inv_at m K (c, kR 1)); iexact HI
    isplitl [HcR1]; · iexact HcR1
    isplitl [HO]; · iexact HO
    iexact Hr1
  iintro ⟨HO, Hr1, HpR1⟩
  -- receive wait 2
  iapply (step_wait_dma m c (recvS 2) (K (c, kR 2)) (recvPay m 2 c) (expect_recv m c 2) (rest_recv m c 2) _) $$ [HcR2 HO Hr2]
  · isplitr; · iapply (inv_at m K (c, kR 2)); iexact HI
    isplitl [HcR2]; · iexact HcR2
    isplitl [HO]; · iexact HO
    iexact Hr2
  iintro ⟨HO, Hr2, HpR2⟩
  -- the seven own cells close: their counters at zero are the device's again
  imod (Rounds.cell_close ER (a2aRd m) (Set.mem_univ (K (c, kS 0))) (fun h => h) (R := 0 + 1) (duties_later m (sendCell 0 c))) $$ [Hs0] with Hz0
  · isplitr; · iapply (inv_at m K (c, kS 0)); iexact HI
    iexact Hs0
  imod (Rounds.cell_close ER (a2aRd m) (Set.mem_univ (K (c, kS 1))) (fun h => h) (R := 0 + 1) (duties_later m (sendCell 1 c))) $$ [Hs1] with Hz1
  · isplitr; · iapply (inv_at m K (c, kS 1)); iexact HI
    iexact Hs1
  imod (Rounds.cell_close ER (a2aRd m) (Set.mem_univ (K (c, kS 2))) (fun h => h) (R := 0 + 1) (duties_later m (sendCell 2 c))) $$ [Hs2] with Hz2
  · isplitr; · iapply (inv_at m K (c, kS 2)); iexact HI
    iexact Hs2
  imod (Rounds.cell_close ER (a2aRd m) (Set.mem_univ (K (c, kR 0))) (fun h => h) (R := 0 + 1) (duties_later m (recvCell 0 c))) $$ [Hr0] with Hz3
  · isplitr; · iapply (inv_at m K (c, kR 0)); iexact HI
    iexact Hr0
  imod (Rounds.cell_close ER (a2aRd m) (Set.mem_univ (K (c, kR 1))) (fun h => h) (R := 0 + 1) (duties_later m (recvCell 1 c))) $$ [Hr1] with Hz4
  · isplitr; · iapply (inv_at m K (c, kR 1)); iexact HI
    iexact Hr1
  imod (Rounds.cell_close ER (a2aRd m) (Set.mem_univ (K (c, kR 2))) (fun h => h) (R := 0 + 1) (duties_later m (recvCell 2 c))) $$ [Hr2] with Hz5
  · isplitr; · iapply (inv_at m K (c, kR 2)); iexact HI
    iexact Hr2
  imod (Rounds.cell_close ER (a2aRd m) (Set.mem_univ (K (c, 7))) (fun h => h) (R := 0 + 1) (duties_later m (locCell c))) $$ [Hl] with Hz6
  · isplitr; · iapply (inv_at m K (c, 7)); iexact HI
    iexact Hl
  rw [wp_ret]; imodintro
  unfold locPay sendPay recvPay
  icases HpL with ⟨HoL, HxL⟩
  unfold Φ₁ Pipeline.ownSems0
  rw [show (dats m 0 c).owed t0_0.succ = 0 from rfl, bigSep_fin7]
  isplitl [HxL HxS0 HxS1 HxS2 HoL HpR0 HpR1 HpR2 Hz0 Hz1 Hz2 Hz3 Hz4 Hz5 Hz6]
  · isplitl [HxL HxS0 HxS1 HxS2]
    · iapply (x_join c (xin m c))
      isplitl [HxL]; · iexact HxL
      isplitl [HxS0]; · iexact HxS0
      isplitl [HxS1]; · iexact HxS1
      iexact HxS2
    isplitl [HoL HpR0 HpR1 HpR2]
    · iapply (out_join c (outAt m c))
      isplitl [HoL]; · iexact HoL
      isplitl [HpR0]; · iexact HpR0
      isplitl [HpR1]; · iexact HpR1
      iexact HpR2
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists (insert (SemLoc.dma (recvS 2), ()) (insert (SemLoc.dma (recvS 1), ()) (insert (SemLoc.dma (recvS 0), ())
      (insert (SemLoc.dma locS, ()) (insert (SemLoc.dma (sendS 2), ()) (insert (SemLoc.dma (sendS 1), ()) (insert (SemLoc.dma (sendS 0), ())
        (insert (SemLoc.reg barS, ()) W))))))))
    isplitr; · ipureintro; exact fun _ _ => Or.inl trivial
    iexact HO
  iempintro

end Body

/-- info: 'Cert.KernelIdeal.A2A.body_obligation' depends on axioms: [propext, Classical.choice, Quot.sound] -/
#guard_msgs in #print axioms body_obligation

end Cert.KernelIdeal.A2A

end
-- ==== Proof.KernelIdealRun.lean ====
/-
  The exchange on the four devices: every device's body proved, the launch gives the run. From any memory with every
  semaphore at zero, every weakly fair execution terminates, faulting nowhere, with each device's result array at the
  exchanged contents and its input block unchanged.
-/
import proofs.«900003_g7700000000000004_dist_a2a_v7x_i4_i_m2048_n512_f32_1_alg».proof.Proof.KernelIdealBody

noncomputable section

namespace Cert.KernelIdeal.A2A

open Cert.KernelIdeal Cert.KernelIdeal.Gen
open Idealize.ShloMosaic Idealize.ShloMosaic.TcCoe Idealize.SL.Sem

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ (QC m) :=
  run_main_of m ρ (body_obligation m)

/-- info: 'Cert.KernelIdeal.A2A.run_main' depends on axioms: [propext, Classical.choice, Quot.sound] -/
#guard_msgs in #print axioms run_main

end Cert.KernelIdeal.A2A

end
-- ==== Proof.A2AValue.lean ====
/-
  The value of the all-to-all: device p's result, element (r, k), is element (r mod 2048, 512·p + k) of the input block of
  device r / 2048. When device s's input block is row block s of a whole 8192 × 2048 array X, that element is
  X (2048·(r / 2048) + r mod 2048, 512·p + k) = X (r, 512·p + k): element (r, k) of column block p of X.
-/
import proofs.«900003_g7700000000000004_dist_a2a_v7x_i4_i_m2048_n512_f32_1_alg».proof.Proof.KernelIdealSched
import proofs.«900003_g7700000000000004_dist_a2a_v7x_i4_i_m2048_n512_f32_1_alg».proof.Defs
import Idealize.ShloMosaic.Lib.Layout
import Idealize.ShloMosaic.Lib.ValueIdx

noncomputable section

namespace Cert.KernelIdeal.A2A

open Idealize.ShloMosaic
open Idealize.ShloMosaic.TcCoe

/-- Row block (r / 2048) of the whole array, at row r mod 2048 and column 512·p + k, is the whole array's element
    (r, 512·p + k), which is where column block p's element (r, k) lies: the two block indices agree, coordinate by
    coordinate (2048·(r / 2048) + r mod 2048 = r on the rows; the columns are the same sum). -/
theorem idx_rows_cols (h0 : Layout.Tiles ⟨2, ![2048, 2048]⟩ ⟨2, ![8192, 2048]⟩ 0 4)
    (h1 : Layout.Tiles ⟨2, ![8192, 512]⟩ ⟨2, ![8192, 2048]⟩ 1 4)
    (p : Dev Cert.KernelIdeal.nD) (i : Cert.KernelIdeal.S8192x512.Idx) :
    h0.idx (rowDev i) (srcIdx p i) = h1.idx p i := by
  funext b
  apply Fin.ext
  match b with
  | ⟨0, _⟩ =>
    show (i 0).val / 2048 * 2048 + (i 0).val % 2048 = (i 0).val
    exact Nat.div_add_mod' _ _
  | ⟨1, _⟩ =>
    show 512 * p.val + (i 1).val = p.val * 512 + (i 1).val
    rw [Nat.mul_comm]

/-- Each device's input block being its row block of X, device p's exchanged result is column block p of X. -/
theorem outAt_eq_block (m : (ℓ : Loc Cert.KernelIdeal.nD Cert.KernelIdeal.τ Cert.KernelIdeal.sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (h : ∀ s : Dev Cert.KernelIdeal.nD,
      m ((s.tc : Thread Cert.KernelIdeal.nD Cert.KernelIdeal.τ).loc Cert.KernelIdeal.main_arg0) = Layout.block ⟨2, ![2048, 2048]⟩ ⟨2, ![8192, 2048]⟩ 0 4 s X)
    (p : Dev Cert.KernelIdeal.nD) :
    Cert.KernelIdeal.A2A.outAt (F := Ideal) m p = Layout.block ⟨2, ![8192, 512]⟩ ⟨2, ![8192, 2048]⟩ 1 4 p X := by
  funext i
  show m (((rowDev i).tc : Thread Cert.KernelIdeal.nD Cert.KernelIdeal.τ).loc Cert.KernelIdeal.main_arg0) (srcIdx p i) = _
  rw [h (rowDev i), Layout.block_apply, Layout.block_apply, idx_rows_cols]

end Cert.KernelIdeal.A2A

/-- info: 'Cert.KernelIdeal.A2A.outAt_eq_block' depends on axioms: [propext, Classical.choice, Quot.sound] -/
#guard_msgs in #print axioms Cert.KernelIdeal.A2A.outAt_eq_block

end
-- ==== Proof.A2AClaims.lean ====
/-
  The five claims from the two kernels' runs.

  The reference is the identity on one device: its program has no operation, so it ends with its one array as launched.
  Each kernel's run ends every device with its input block unchanged and its result array at the exchanged contents
  (element (r, k) of device p's result is element (r mod 2048, 512·p + k) of the input block of device r / 2048). The three
  frames are those runs with the result's value dropped; the idealization rewrote nothing; and where each device's input
  block is its row block of the reference's array X, device p's exchanged result is column block p of X, which is its part
  of what the reference returns.
-/
import proofs.«900003_g7700000000000004_dist_a2a_v7x_i4_i_m2048_n512_f32_1_alg».proof.Proof.A2AValue
import proofs.«900003_g7700000000000004_dist_a2a_v7x_i4_i_m2048_n512_f32_1_alg».proof.Proof.KernelSched
import proofs.«900003_g7700000000000004_dist_a2a_v7x_i4_i_m2048_n512_f32_1_alg».proof.Proof.Gen.ReferenceIdeal
import proofs.«900003_g7700000000000004_dist_a2a_v7x_i4_i_m2048_n512_f32_1_alg».proof.Proof.Gen.Pre_finite_inputs_Kernel
import proofs.«900003_g7700000000000004_dist_a2a_v7x_i4_i_m2048_n512_f32_1_alg».proof.Proof.Gen.Pre_finite_inputs_ReferenceIdeal
import proofs.«900003_g7700000000000004_dist_a2a_v7x_i4_i_m2048_n512_f32_1_alg».proof.Proof.Gen.Kernel
import proofs.«900003_g7700000000000004_dist_a2a_v7x_i4_i_m2048_n512_f32_1_alg».proof.Proof.Gen.KernelIdeal
import Idealize.ShloMosaic.Lib.StableHlo.Run

noncomputable section

namespace Cert.Proof.A2A

open Idealize.ShloMosaic Idealize.ShloMosaic.TcCoe Idealize.ShloMosaic.StableHlo Idealize.SL.Sem

/-! ## The reference's run -/

/-- The reference's signature scopes no buffer -/
theorem ref_scopedRefs : (Finset.univ.filter fun b : Ref Cert.ReferenceIdeal.sig .tc => b.isScoped) = ∅ := by decide
/-- and no semaphore. -/
theorem ref_scopedSems : (Finset.univ.filter fun sm : SemLoc Cert.ReferenceIdeal.sig => sm.isScoped .tc) = ∅ := by decide

/-- The reference's program is the empty line of operations: from any memory with zero counters it terminates with its
    array holding what it held. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0 Cert.ReferenceIdeal.main_arg0)
    (run_seq ref_scopedRefs ref_scopedSems (Cert.ReferenceIdeal.defs (F := Ideal)) (Cert.ReferenceIdeal.main (F := Ideal))
      (fun _ => []) (fun _ => rfl) (fun _ => trivial) m' g')

/-! ## The claims -/

/-- The five claims, given each kernel's run to the exchanged contents with the input blocks unchanged. -/
theorem claims_of
    (hK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (Cert.Kernel.A2A.QC (F := Bits) m))
    (hKI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (Cert.KernelIdeal.A2A.QC (F := Ideal) m)) :
    Cert.frame_Kernel ∧ Cert.frame_KernelIdeal ∧ Cert.frame_ReferenceIdeal ∧ Cert.preserves_Kernel_KernelIdeal ∧ Cert.algebraic_KernelIdeal_ReferenceIdeal := by
  refine ⟨?_, ?_, ?_, trivial, ?_⟩
  · -- the word-level kernel's run, the result's value dropped
    intro m g _
    exact (θ_run (Cert.Kernel.defs (F := Bits)) _ _).mono (fun _ h c => (h c).2) (hK m g)
  · -- the idealized kernel's run, the result's value dropped
    intro m g _
    exact (θ_run (Cert.KernelIdeal.defs (F := Ideal)) _ _).mono (fun _ h c => (h c).2) (hKI m g)
  · -- the reference has one device
    intro m g _
    refine (θ_run (Cert.ReferenceIdeal.defs (F := Ideal)) _ _).mono (fun _ h c => ?_) (ref_run m g)
    obtain rfl : c = 0 := Subsingleton.elim _ _
    exact h
  · -- the value: the reference returns its array X; device c's exchanged result is column block c of X
    intro m g m' g' _ hagree
    refine ⟨m' (((0 : Dev Cert.ReferenceIdeal.nD).tc : Thread Cert.ReferenceIdeal.nD Cert.ReferenceIdeal.τ).loc Cert.ReferenceIdeal.main_arg0), ?_, ?_⟩
    · exact (θ_run (Cert.KernelIdeal.defs (F := Ideal)) _ _).mono
        (fun _ h c => ⟨(h c).1.trans (Cert.KernelIdeal.A2A.outAt_eq_block m _ hagree c), (h c).2⟩) (hKI m g)
    · exact (θ_run (Cert.ReferenceIdeal.defs (F := Ideal)) _ _).mono (fun _ h => ⟨h, h⟩) (ref_run m' g')

end Cert.Proof.A2A

/-- info: 'Cert.Proof.A2A.claims_of' depends on axioms: [propext, Classical.choice, Quot.sound] -/
#guard_msgs in #print axioms Cert.Proof.A2A.claims_of

end
-- ==== Proof.lean ====
/-
  An all-to-all exchange on four devices against the identity on one.

  The whole input X has 8192 rows and 2048 columns; device c holds its row block x_c (rows [2048·c, 2048·c + 2048)). The
  kernel makes device c send column block p of x_c to device p, for each of the three other devices, into row block c of p's
  result, and copy its own column block c into its own row block c, after an entry handshake in which every device signals
  each of the others once and waits for three units. Device p's result therefore ends with row block s holding column block p
  of x_s for every s: the columns [512·p, 512·p + 512) of X, which is device p's part of what the reference, the identity,
  returns. No arithmetic is done on the values, so nothing is asked of the inputs' finiteness.

  The proof: the words and the schedule of the protocol (Proof/KernelIdealSched.lean), the geometry of the blocks and what each
  landing leaves (Proof/KernelIdealRegions.lean), one device's steps (Proof/KernelIdealBody.lean), the launch on four
  devices (Proof/KernelIdealLaunch.lean, Proof/KernelIdealRun.lean), all written once for any float instance and read again at
  the word-level program (Proof/Kernel*.lean); the value and the five claims (Proof/A2AValue.lean, Proof/A2AClaims.lean).
-/
import proofs.«900003_g7700000000000004_dist_a2a_v7x_i4_i_m2048_n512_f32_1_alg».proof.Defs
import proofs.«900003_g7700000000000004_dist_a2a_v7x_i4_i_m2048_n512_f32_1_alg».proof.Proof.Gen.Kernel
import proofs.«900003_g7700000000000004_dist_a2a_v7x_i4_i_m2048_n512_f32_1_alg».proof.Proof.Gen.KernelIdeal
import proofs.«900003_g7700000000000004_dist_a2a_v7x_i4_i_m2048_n512_f32_1_alg».proof.Proof.Gen.ReferenceIdeal
import proofs.«900003_g7700000000000004_dist_a2a_v7x_i4_i_m2048_n512_f32_1_alg».proof.Proof.Gen.Pre_finite_inputs_Kernel
import proofs.«900003_g7700000000000004_dist_a2a_v7x_i4_i_m2048_n512_f32_1_alg».proof.Proof.Gen.Pre_finite_inputs_ReferenceIdeal
import proofs.«900003_g7700000000000004_dist_a2a_v7x_i4_i_m2048_n512_f32_1_alg».proof.Proof.KernelRun
import proofs.«900003_g7700000000000004_dist_a2a_v7x_i4_i_m2048_n512_f32_1_alg».proof.Proof.KernelIdealRun
import proofs.«900003_g7700000000000004_dist_a2a_v7x_i4_i_m2048_n512_f32_1_alg».proof.Proof.A2AClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.A2A.claims_of (fun m ρ => Cert.Kernel.A2A.run_main m ρ) (fun m ρ => Cert.KernelIdeal.A2A.run_main m ρ)⟩

end Cert.Proof

end
